-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S2x393216 : Shape := ⟨2, ![2, 393216]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S64x64 .f32) (main_arg11 : FVec F S64 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x128 .f32) (main_arg7 : FVec F S128 .f32) (main_arg8 : FVec F S128x256 .f32) (main_arg9 : FVec F S256 .f32) (main_arg10 : FVec F S64x64 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S12288x256 .f32) (main_arg1 : IVec S2x393216 32) (main_arg2 : FVec F S256x128 .f32) (main_arg3 : FVec F S128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) (main_arg10 : FVec F S64x64 .f32) (main_arg11 : FVec F S64 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S12288x256 : Shape := ⟨2, ![12288, 256]⟩
abbrev S2x393216 : Shape := ⟨2, ![2, 393216]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S12288x1 : Shape := ⟨2, ![12288, 1]⟩
abbrev S12288x128 : Shape := ⟨2, ![12288, 128]⟩
abbrev S2048x256 : Shape := ⟨2, ![2048, 256]⟩
abbrev S2048x128 : Shape := ⟨2, ![2048, 128]⟩
abbrev S393216x128 : Shape := ⟨2, ![393216, 128]⟩
abbrev S2048x1 : Shape := ⟨2, ![2048, 1]⟩
abbrev S1x128 : Shape := ⟨2, ![1, 128]⟩
abbrev S12288x64 : Shape := ⟨2, ![12288, 64]⟩
abbrev S2048x64 : Shape := ⟨2, ![2048, 64]⟩
abbrev S393216x64 : Shape := ⟨2, ![393216, 64]⟩
abbrev S1x64 : Shape := ⟨2, ![1, 64]⟩
abbrev S393216x256 : Shape := ⟨2, ![393216, 256]⟩
abbrev S1x256 : Shape := ⟨2, ![1, 256]⟩
abbrev S12288x12288 : Shape := ⟨2, ![12288, 12288]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 147
  | .vmem => 76
  | .smem => 0
  | _ => 0

abbrev hbmTy0_0 (i : Nat) : BufTy := match i % 128 with
  | 0 => ⟨S12288x256, .f32⟩
  | 1 => ⟨S2x393216, .i32⟩
  | 2 => ⟨S256x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x256, .f32⟩
  | 9 => ⟨S256, .f32⟩
  | 10 => ⟨S64x64, .f32⟩
  | 11 => ⟨S64, .f32⟩
  | 12 => ⟨S1x393216, .i32⟩
  | 13 => ⟨S393216, .i32⟩
  | 14 => ⟨S1x393216, .i32⟩
  | 15 => ⟨S393216, .i32⟩
  | 16 => ⟨S_, .f32⟩
  | 17 => ⟨S12288, .f32⟩
  | 18 => ⟨S_, .i32⟩
  | 19 => ⟨S393216, .i32⟩
  | 20 => ⟨S393216, .i1⟩
  | 21 => ⟨S_, .i32⟩
  | 22 => ⟨S393216, .i32⟩
  | 23 => ⟨S393216, .i32⟩
  | 24 => ⟨S393216, .i32⟩
  | 25 => ⟨S393216x1, .i32⟩
  | 26 => ⟨S_, .f32⟩
  | 27 => ⟨S393216, .f32⟩
  | 28 => ⟨S12288, .f32⟩
  | 29 => ⟨S_, .f32⟩
  | 30 => ⟨S12288, .f32⟩
  | 31 => ⟨S12288, .f32⟩
  | 32 => ⟨S12288, .f32⟩
  | 33 => ⟨S_, .i32⟩
  | 34 => ⟨S393216, .i32⟩
  | 35 => ⟨S393216, .i1⟩
  | 36 => ⟨S_, .i32⟩
  | 37 => ⟨S393216, .i32⟩
  | 38 => ⟨S393216, .i32⟩
  | 39 => ⟨S393216, .i32⟩
  | 40 => ⟨S393216x1, .i32⟩
  | 41 => ⟨S393216, .f32⟩
  | 42 => ⟨S_, .i32⟩
  | 43 => ⟨S393216, .i32⟩
  | 44 => ⟨S393216, .i1⟩
  | 45 => ⟨S_, .i32⟩
  | 46 => ⟨S393216, .i32⟩
  | 47 => ⟨S393216, .i32⟩
  | 48 => ⟨S393216, .i32⟩
  | 49 => ⟨S393216x1, .i32⟩
  | 50 => ⟨S393216, .f32⟩
  | 51 => ⟨S393216, .f32⟩
  | 52 => ⟨S_, .f32⟩
  | 53 => ⟨S12288, .f32⟩
  | 54 => ⟨S12288, .f32⟩
  | 55 => ⟨S12288x1, .f32⟩
  | 56 => ⟨S12288x128, .f32⟩
  | 57 => ⟨S_, .i32⟩
  | 58 => ⟨S393216, .i32⟩
  | 59 => ⟨S393216, .i1⟩
  | 60 => ⟨S_, .i32⟩
  | 61 => ⟨S393216, .i32⟩
  | 62 => ⟨S393216, .i32⟩
  | 63 => ⟨S393216, .i32⟩
  | 64 => ⟨S393216x1, .i32⟩
  | 65 => ⟨S393216x128, .f32⟩
  | 66 => ⟨S393216x1, .f32⟩
  | 67 => ⟨S393216x128, .f32⟩
  | 68 => ⟨S393216x128, .f32⟩
  | 69 => ⟨S_, .f32⟩
  | 70 => ⟨S12288x128, .f32⟩
  | 71 => ⟨S393216x1, .i32⟩
  | 72 => ⟨S12288x128, .f32⟩
  | 73 => ⟨S12288x128, .f32⟩
  | 74 => ⟨S12288x64, .f32⟩
  | 75 => ⟨S_, .i32⟩
  | 76 => ⟨S393216, .i32⟩
  | 77 => ⟨S393216, .i1⟩
  | 78 => ⟨S_, .i32⟩
  | 79 => ⟨S393216, .i32⟩
  | 80 => ⟨S393216, .i32⟩
  | 81 => ⟨S393216, .i32⟩
  | 82 => ⟨S393216x1, .i32⟩
  | 83 => ⟨S393216x64, .f32⟩
  | 84 => ⟨S393216x1, .f32⟩
  | 85 => ⟨S393216x64, .f32⟩
  | 86 => ⟨S393216x64, .f32⟩
  | 87 => ⟨S_, .f32⟩
  | 88 => ⟨S12288x64, .f32⟩
  | 89 => ⟨S393216x1, .i32⟩
  | 90 => ⟨S12288x64, .f32⟩
  | 91 => ⟨S12288x64, .f32⟩
  | 92 => ⟨S12288x128, .f32⟩
  | 93 => ⟨S_, .i32⟩
  | 94 => ⟨S393216, .i32⟩
  | 95 => ⟨S393216, .i1⟩
  | 96 => ⟨S_, .i32⟩
  | 97 => ⟨S393216, .i32⟩
  | 98 => ⟨S393216, .i32⟩
  | 99 => ⟨S393216, .i32⟩
  | 100 => ⟨S393216x1, .i32⟩
  | 101 => ⟨S393216x128, .f32⟩
  | 102 => ⟨S393216x1, .f32⟩
  | 103 => ⟨S393216x128, .f32⟩
  | 104 => ⟨S393216x128, .f32⟩
  | 105 => ⟨S_, .f32⟩
  | 106 => ⟨S12288x128, .f32⟩
  | 107 => ⟨S393216x1, .i32⟩
  | 108 => ⟨S12288x128, .f32⟩
  | 109 => ⟨S12288x128, .f32⟩
  | 110 => ⟨S12288x256, .f32⟩
  | 111 => ⟨S_, .i32⟩
  | 112 => ⟨S393216, .i32⟩
  | 113 => ⟨S393216, .i1⟩
  | 114 => ⟨S_, .i32⟩
  | 115 => ⟨S393216, .i32⟩
  | 116 => ⟨S393216, .i32⟩
  | 117 => ⟨S393216, .i32⟩
  | 118 => ⟨S393216x1, .i32⟩
  | 119 => ⟨S393216x256, .f32⟩
  | 120 => ⟨S393216x1, .f32⟩
  | 121 => ⟨S393216x256, .f32⟩
  | 122 => ⟨S393216x256, .f32⟩
  | 123 => ⟨S_, .f32⟩
  | 124 => ⟨S12288x256, .f32⟩
  | 125 => ⟨S393216x1, .i32⟩
  | 126 => ⟨S12288x256, .f32⟩
  | 127 => ⟨S12288x256, .f32⟩
  | _ => ⟨S12288x256, .f32⟩

abbrev hbmTy0_1 (i : Nat) : BufTy := match i % 128 with
  | 0 => ⟨S12288x64, .f32⟩
  | 1 => ⟨S_, .i32⟩
  | 2 => ⟨S393216, .i32⟩
  | 3 => ⟨S393216, .i1⟩
  | 4 => ⟨S_, .i32⟩
  | 5 => ⟨S393216, .i32⟩
  | 6 => ⟨S393216, .i32⟩
  | 7 => ⟨S393216, .i32⟩
  | 8 => ⟨S393216x1, .i32⟩
  | 9 => ⟨S393216x64, .f32⟩
  | 10 => ⟨S393216x1, .f32⟩
  | 11 => ⟨S393216x64, .f32⟩
  | 12 => ⟨S393216x64, .f32⟩
  | 13 => ⟨S_, .f32⟩
  | 14 => ⟨S12288x64, .f32⟩
  | 15 => ⟨S393216x1, .i32⟩
  | 16 => ⟨S12288x64, .f32⟩
  | 17 => ⟨S12288x64, .f32⟩
  | 18 => ⟨S12288x12288, .f32⟩
  | _ => ⟨S12288x256, .f32⟩

abbrev hbmTy (i : Nat) : BufTy := match i / 128 with
  | 0 => hbmTy0_0 i
  | 1 => hbmTy0_1 i
  | _ => ⟨S12288x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x1, .f32⟩
  | .local _ .vmem, ⟨11, _⟩ => ⟨S128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x1, .f32⟩
  | .local _ .vmem, ⟨24, _⟩ => ⟨S2048x1, .f32⟩
  | .local _ .vmem, ⟨25, _⟩ => ⟨S64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S64x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x1, .f32⟩
  | .local _ .vmem, ⟨38, _⟩ => ⟨S2048x1, .f32⟩
  | .local _ .vmem, ⟨39, _⟩ => ⟨S128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S128x256, .f32⟩
  | .local _ .vmem, ⟨45, _⟩ => ⟨S2048x256, .f32⟩
  | .local _ .vmem, ⟨46, _⟩ => ⟨S2048x256, .f32⟩
  | .local _ .vmem, ⟨47, _⟩ => ⟨S2048x256, .f32⟩
  | .local _ .vmem, ⟨48, _⟩ => ⟨S2048x256, .f32⟩
  | .local _ .vmem, ⟨49, _⟩ => ⟨S2048x256, .f32⟩
  | .local _ .vmem, ⟨50, _⟩ => ⟨S2048x256, .f32⟩
  | .local _ .vmem, ⟨51, _⟩ => ⟨S2048x1, .f32⟩
  | .local _ .vmem, ⟨52, _⟩ => ⟨S2048x1, .f32⟩
  | .local _ .vmem, ⟨53, _⟩ => ⟨S256, .f32⟩
  | .local _ .vmem, ⟨54, _⟩ => ⟨S2048x256, .f32⟩
  | .local _ .vmem, ⟨55, _⟩ => ⟨S2048x256, .f32⟩
  | .local _ .vmem, ⟨56, _⟩ => ⟨S2048x64, .f32⟩
  | .local _ .vmem, ⟨57, _⟩ => ⟨S2048x64, .f32⟩
  | .local _ .vmem, ⟨58, _⟩ => ⟨S64x64, .f32⟩
  | .local _ .vmem, ⟨59, _⟩ => ⟨S2048x64, .f32⟩
  | .local _ .vmem, ⟨60, _⟩ => ⟨S2048x64, .f32⟩
  | .local _ .vmem, ⟨61, _⟩ => ⟨S2048x64, .f32⟩
  | .local _ .vmem, ⟨62, _⟩ => ⟨S2048x64, .f32⟩
  | .local _ .vmem, ⟨63, _⟩ => ⟨S2048x64, .f32⟩
  | .local _ .vmem, ⟨64, _⟩ => ⟨S2048x64, .f32⟩
  | .local _ .vmem, ⟨65, _⟩ => ⟨S2048x1, .f32⟩
  | .local _ .vmem, ⟨66, _⟩ => ⟨S2048x1, .f32⟩
  | .local _ .vmem, ⟨67, _⟩ => ⟨S64, .f32⟩
  | .local _ .vmem, ⟨68, _⟩ => ⟨S2048x64, .f32⟩
  | .local _ .vmem, ⟨69, _⟩ => ⟨S2048x64, .f32⟩
  | .local _ .vmem, ⟨70, _⟩ => ⟨S1024x64, .f32⟩
  | .local _ .vmem, ⟨71, _⟩ => ⟨S1024x64, .f32⟩
  | .local _ .vmem, ⟨72, _⟩ => ⟨S1024x64, .f32⟩
  | .local _ .vmem, ⟨73, _⟩ => ⟨S1024x64, .f32⟩
  | .local _ .vmem, ⟨74, _⟩ => ⟨S1024x1024, .f32⟩
  | .local _ .vmem, ⟨75, _⟩ => ⟨S1024x1024, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_20 : Ref sig .tc := ⟨.hbm, 129, rfl⟩
abbrev main_v95 : Ref sig .tc := ⟨.hbm, 130, rfl⟩
abbrev main_v96 : Ref sig .tc := ⟨.hbm, 131, rfl⟩
abbrev main_c_21 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![6], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![6], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![6], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2048x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2048x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![6], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![6], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2048x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2048x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2048x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨2, ![12, 12], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1024x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S12288 : S_.BroadcastsInDim S12288 (![] : Fin 0 → Fin S12288.rank)
  bcast_S_S393216 : S_.BroadcastsInDim S393216 (![] : Fin 0 → Fin S393216.rank)
  bcast_S393216_S393216x1_0 : S393216.BroadcastsInDim S393216x1 (![0] : Fin 1 → Fin S393216x1.rank)
  shapeCasts_S12288_S12288x1 : S12288.ShapeCasts S12288x1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  shapeCasts_S2048x64_S2048x64 : S2048x64.ShapeCasts S2048x64
  broadcasts_S2048x1_S2048x64 : S2048x1.Broadcasts S2048x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  shapeCasts_S2048x256_S2048x256 : S2048x256.ShapeCasts S2048x256
  broadcasts_S2048x1_S2048x256 : S2048x1.Broadcasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S12288_S393216x1_S393216_n_0_0_1_wf : ScatterDims.WF S12288 S393216x1 S393216 [] [0] [0] 1
  gather_S12288_S393216x1_S393216_n_0_n_n_0_1_1_wf : GatherDims.WF S12288 S393216x1 S393216 [] [0] [] [0] [] 1 ![1]
  dot_S2048x256_S256x128_S2048x128_1_0_0_1_n_n_wf : DotDims.WF S2048x256 S256x128 S2048x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S2048x128_S128x64_S2048x64_1_0_0_1_n_n_wf : DotDims.WF S2048x128 S128x64 S2048x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S2048x64_S64x128_S2048x128_1_0_0_1_n_n_wf : DotDims.WF S2048x64 S64x128 S2048x128 [1] [0] [0] [1] [] []
  dot_S2048x128_S128x256_S2048x256_1_0_0_1_n_n_wf : DotDims.WF S2048x128 S128x256 S2048x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S2048x64_S64x64_S2048x64_1_0_0_1_n_n_wf : DotDims.WF S2048x64 S64x64 S2048x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S12288x256.size a
  hwx0_0 : ∀ i : grid0.Coords, EltTy.bits .f32 = 32 ∨ (Rect.block (s := S12288x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S12288x128.size a
  hwx0_2 : ∀ i : grid0.Coords, EltTy.bits .f32 = 32 ∨ (Rect.block (s := S12288x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S12288x128.size a
  hwx1_0 : ∀ i : grid1.Coords, EltTy.bits .f32 = 32 ∨ (Rect.block (s := S12288x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S12288x128.size a
  hwx1_1 : ∀ i : grid1.Coords, EltTy.bits .f32 = 32 ∨ (Rect.block (s := S12288x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S12288x1.size a
  hwx1_2 : ∀ i : grid1.Coords, EltTy.bits .f32 = 32 ∨ (Rect.block (s := S12288x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S12288x128.size a
  hwx1_4 : ∀ i : grid1.Coords, EltTy.bits .f32 = 32 ∨ (Rect.block (s := S12288x128) S2048x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S12288x128.size a
  hwx2_0 : ∀ i : grid2.Coords, EltTy.bits .f32 = 32 ∨ (Rect.block (s := S12288x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S12288x64.size a
  hwx2_2 : ∀ i : grid2.Coords, EltTy.bits .f32 = 32 ∨ (Rect.block (s := S12288x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S12288x64.size a
  hwx3_0 : ∀ i : grid3.Coords, EltTy.bits .f32 = 32 ∨ (Rect.block (s := S12288x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S12288x64.size a
  hwx3_1 : ∀ i : grid3.Coords, EltTy.bits .f32 = 32 ∨ (Rect.block (s := S12288x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S12288x1.size a
  hwx3_2 : ∀ i : grid3.Coords, EltTy.bits .f32 = 32 ∨ (Rect.block (s := S12288x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x64.size a ≤ S12288x64.size a
  hwx3_4 : ∀ i : grid3.Coords, EltTy.bits .f32 = 32 ∨ (Rect.block (s := S12288x64) S2048x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S12288x64.size a
  hwx4_0 : ∀ i : grid4.Coords, EltTy.bits .f32 = 32 ∨ (Rect.block (s := S12288x64) S2048x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S12288x128.size a
  hwx4_2 : ∀ i : grid4.Coords, EltTy.bits .f32 = 32 ∨ (Rect.block (s := S12288x128) S2048x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S12288x128.size a
  hwx5_0 : ∀ i : grid5.Coords, EltTy.bits .f32 = 32 ∨ (Rect.block (s := S12288x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S12288x128.size a
  hwx5_1 : ∀ i : grid5.Coords, EltTy.bits .f32 = 32 ∨ (Rect.block (s := S12288x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S12288x1.size a
  hwx5_2 : ∀ i : grid5.Coords, EltTy.bits .f32 = 32 ∨ (Rect.block (s := S12288x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x128.size a ≤ S12288x128.size a
  hwx5_4 : ∀ i : grid5.Coords, EltTy.bits .f32 = 32 ∨ (Rect.block (s := S12288x128) S2048x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S12288x128.size a
  hwx6_0 : ∀ i : grid6.Coords, EltTy.bits .f32 = 32 ∨ (Rect.block (s := S12288x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S12288x256.size a
  hwx6_2 : ∀ i : grid6.Coords, EltTy.bits .f32 = 32 ∨ (Rect.block (s := S12288x256) S2048x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S12288x256.size a
  hwx7_0 : ∀ i : grid7.Coords, EltTy.bits .f32 = 32 ∨ (Rect.block (s := S12288x256) S2048x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S12288x256.size a
  hwx7_1 : ∀ i : grid7.Coords, EltTy.bits .f32 = 32 ∨ (Rect.block (s := S12288x256) S2048x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1.size a ≤ S12288x1.size a
  hwx7_2 : ∀ i : grid7.Coords, EltTy.bits .f32 = 32 ∨ (Rect.block (s := S12288x1) S2048x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256.size a ≤ S256.size a
  hwx7_3 : ∀ i : grid7.Coords, EltTy.bits .f32 = 32 ∨ (Rect.block (s := S256) S256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x256.size a ≤ S12288x256.size a
  hwx7_4 : ∀ i : grid7.Coords, EltTy.bits .f32 = 32 ∨ (Rect.block (s := S12288x256) S2048x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x64.size a ≤ S12288x64.size a
  hwx8_0 : ∀ i : grid8.Coords, EltTy.bits .f32 = 32 ∨ (Rect.block (s := S12288x64) S2048x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x64.size a ≤ S12288x64.size a
  hwx8_2 : ∀ i : grid8.Coords, EltTy.bits .f32 = 32 ∨ (Rect.block (s := S12288x64) S2048x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x64.size a ≤ S12288x64.size a
  hwx9_0 : ∀ i : grid9.Coords, EltTy.bits .f32 = 32 ∨ (Rect.block (s := S12288x64) S2048x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x64.size a ≤ S12288x64.size a
  hwx9_1 : ∀ i : grid9.Coords, EltTy.bits .f32 = 32 ∨ (Rect.block (s := S12288x64) S2048x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x1.size a ≤ S12288x1.size a
  hwx9_2 : ∀ i : grid9.Coords, EltTy.bits .f32 = 32 ∨ (Rect.block (s := S12288x1) S2048x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x64.size a ≤ S12288x64.size a
  hwx9_4 : ∀ i : grid9.Coords, EltTy.bits .f32 = 32 ∨ (Rect.block (s := S12288x64) S2048x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x64.size a ≤ S12288x64.size a
  hwx10_0 : ∀ i : grid10.Coords, EltTy.bits .f32 = 32 ∨ (Rect.block (s := S12288x64) S1024x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x64.size a ≤ S12288x64.size a
  hwx10_1 : ∀ i : grid10.Coords, EltTy.bits .f32 = 32 ∨ (Rect.block (s := S12288x64) S1024x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x1024.size a ≤ S12288x12288.size a
  hwx10_2 : ∀ i : grid10.Coords, EltTy.bits .f32 = 32 ∨ (Rect.block (s := S12288x12288) S1024x1024.size (cc10_transform_2 i) (hinb10_2 i)).WholeWords (EltTy.packing .f32)

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2048x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2048x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v33) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S2048x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S2048x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S2048x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v33) S2048x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg9) S256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S2048x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v63) S2048x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v94) S2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v107) S2048x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v94) S2048x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v33) S2048x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v108) S2048x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v108) S1024x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v108) S1024x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v109) S1024x1024.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S12288x256 : Shape := ⟨2, ![12288, 256]⟩
abbrev S2x393216 : Shape := ⟨2, ![2, 393216]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S12288x128 : Shape := ⟨2, ![12288, 128]⟩
abbrev S393216x128 : Shape := ⟨2, ![393216, 128]⟩
abbrev S12288x1 : Shape := ⟨2, ![12288, 1]⟩
abbrev S1x128 : Shape := ⟨2, ![1, 128]⟩
abbrev S12288x64 : Shape := ⟨2, ![12288, 64]⟩
abbrev S393216x64 : Shape := ⟨2, ![393216, 64]⟩
abbrev S1x64 : Shape := ⟨2, ![1, 64]⟩
abbrev S393216x256 : Shape := ⟨2, ![393216, 256]⟩
abbrev S1x256 : Shape := ⟨2, ![1, 256]⟩
abbrev S64x12288 : Shape := ⟨2, ![64, 12288]⟩
abbrev S12288x12288 : Shape := ⟨2, ![12288, 12288]⟩

abbrev nBuf : Space → Nat
  | .hbm => 189
  | .vmem => 0
  | .smem => 0
  | _ => 0

abbrev hbmTy0_0 (i : Nat) : BufTy := match i % 128 with
  | 0 => ⟨S12288x256, .f32⟩
  | 1 => ⟨S2x393216, .i32⟩
  | 2 => ⟨S256x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x256, .f32⟩
  | 9 => ⟨S256, .f32⟩
  | 10 => ⟨S64x64, .f32⟩
  | 11 => ⟨S64, .f32⟩
  | 12 => ⟨S1x393216, .i32⟩
  | 13 => ⟨S393216, .i32⟩
  | 14 => ⟨S1x393216, .i32⟩
  | 15 => ⟨S393216, .i32⟩
  | 16 => ⟨S_, .f32⟩
  | 17 => ⟨S12288, .f32⟩
  | 18 => ⟨S_, .i32⟩
  | 19 => ⟨S393216, .i32⟩
  | 20 => ⟨S393216, .i1⟩
  | 21 => ⟨S_, .i32⟩
  | 22 => ⟨S393216, .i32⟩
  | 23 => ⟨S393216, .i32⟩
  | 24 => ⟨S393216, .i32⟩
  | 25 => ⟨S393216x1, .i32⟩
  | 26 => ⟨S_, .f32⟩
  | 27 => ⟨S393216, .f32⟩
  | 28 => ⟨S12288, .f32⟩
  | 29 => ⟨S_, .f32⟩
  | 30 => ⟨S12288, .f32⟩
  | 31 => ⟨S12288, .f32⟩
  | 32 => ⟨S12288, .f32⟩
  | 33 => ⟨S_, .i32⟩
  | 34 => ⟨S393216, .i32⟩
  | 35 => ⟨S393216, .i1⟩
  | 36 => ⟨S_, .i32⟩
  | 37 => ⟨S393216, .i32⟩
  | 38 => ⟨S393216, .i32⟩
  | 39 => ⟨S393216, .i32⟩
  | 40 => ⟨S393216x1, .i32⟩
  | 41 => ⟨S393216, .f32⟩
  | 42 => ⟨S_, .i32⟩
  | 43 => ⟨S393216, .i32⟩
  | 44 => ⟨S393216, .i1⟩
  | 45 => ⟨S_, .i32⟩
  | 46 => ⟨S393216, .i32⟩
  | 47 => ⟨S393216, .i32⟩
  | 48 => ⟨S393216, .i32⟩
  | 49 => ⟨S393216x1, .i32⟩
  | 50 => ⟨S393216, .f32⟩
  | 51 => ⟨S393216, .f32⟩
  | 52 => ⟨S_, .f32⟩
  | 53 => ⟨S12288, .f32⟩
  | 54 => ⟨S12288, .f32⟩
  | 55 => ⟨S12288x128, .f32⟩
  | 56 => ⟨S_, .i32⟩
  | 57 => ⟨S393216, .i32⟩
  | 58 => ⟨S393216, .i1⟩
  | 59 => ⟨S_, .i32⟩
  | 60 => ⟨S393216, .i32⟩
  | 61 => ⟨S393216, .i32⟩
  | 62 => ⟨S393216, .i32⟩
  | 63 => ⟨S393216x1, .i32⟩
  | 64 => ⟨S393216x128, .f32⟩
  | 65 => ⟨S393216x1, .f32⟩
  | 66 => ⟨S393216x128, .f32⟩
  | 67 => ⟨S393216x128, .f32⟩
  | 68 => ⟨S_, .f32⟩
  | 69 => ⟨S12288x128, .f32⟩
  | 70 => ⟨S393216x1, .i32⟩
  | 71 => ⟨S12288x128, .f32⟩
  | 72 => ⟨S12288x1, .f32⟩
  | 73 => ⟨S12288x128, .f32⟩
  | 74 => ⟨S12288x128, .f32⟩
  | 75 => ⟨S12288x128, .f32⟩
  | 76 => ⟨S1x128, .f32⟩
  | 77 => ⟨S12288x128, .f32⟩
  | 78 => ⟨S12288x128, .f32⟩
  | 79 => ⟨S_, .f32⟩
  | 80 => ⟨S12288x128, .f32⟩
  | 81 => ⟨S12288x128, .f32⟩
  | 82 => ⟨S12288x64, .f32⟩
  | 83 => ⟨S_, .i32⟩
  | 84 => ⟨S393216, .i32⟩
  | 85 => ⟨S393216, .i1⟩
  | 86 => ⟨S_, .i32⟩
  | 87 => ⟨S393216, .i32⟩
  | 88 => ⟨S393216, .i32⟩
  | 89 => ⟨S393216, .i32⟩
  | 90 => ⟨S393216x1, .i32⟩
  | 91 => ⟨S393216x64, .f32⟩
  | 92 => ⟨S393216x1, .f32⟩
  | 93 => ⟨S393216x64, .f32⟩
  | 94 => ⟨S393216x64, .f32⟩
  | 95 => ⟨S_, .f32⟩
  | 96 => ⟨S12288x64, .f32⟩
  | 97 => ⟨S393216x1, .i32⟩
  | 98 => ⟨S12288x64, .f32⟩
  | 99 => ⟨S12288x1, .f32⟩
  | 100 => ⟨S12288x64, .f32⟩
  | 101 => ⟨S12288x64, .f32⟩
  | 102 => ⟨S12288x64, .f32⟩
  | 103 => ⟨S1x64, .f32⟩
  | 104 => ⟨S12288x64, .f32⟩
  | 105 => ⟨S12288x64, .f32⟩
  | 106 => ⟨S_, .f32⟩
  | 107 => ⟨S12288x64, .f32⟩
  | 108 => ⟨S12288x64, .f32⟩
  | 109 => ⟨S12288x128, .f32⟩
  | 110 => ⟨S_, .i32⟩
  | 111 => ⟨S393216, .i32⟩
  | 112 => ⟨S393216, .i1⟩
  | 113 => ⟨S_, .i32⟩
  | 114 => ⟨S393216, .i32⟩
  | 115 => ⟨S393216, .i32⟩
  | 116 => ⟨S393216, .i32⟩
  | 117 => ⟨S393216x1, .i32⟩
  | 118 => ⟨S393216x128, .f32⟩
  | 119 => ⟨S393216x1, .f32⟩
  | 120 => ⟨S393216x128, .f32⟩
  | 121 => ⟨S393216x128, .f32⟩
  | 122 => ⟨S_, .f32⟩
  | 123 => ⟨S12288x128, .f32⟩
  | 124 => ⟨S393216x1, .i32⟩
  | 125 => ⟨S12288x128, .f32⟩
  | 126 => ⟨S12288x1, .f32⟩
  | 127 => ⟨S12288x128, .f32⟩
  | _ => ⟨S12288x256, .f32⟩

abbrev hbmTy0_1 (i : Nat) : BufTy := match i % 128 with
  | 0 => ⟨S12288x128, .f32⟩
  | 1 => ⟨S12288x128, .f32⟩
  | 2 => ⟨S1x128, .f32⟩
  | 3 => ⟨S12288x128, .f32⟩
  | 4 => ⟨S12288x128, .f32⟩
  | 5 => ⟨S_, .f32⟩
  | 6 => ⟨S12288x128, .f32⟩
  | 7 => ⟨S12288x128, .f32⟩
  | 8 => ⟨S12288x256, .f32⟩
  | 9 => ⟨S_, .i32⟩
  | 10 => ⟨S393216, .i32⟩
  | 11 => ⟨S393216, .i1⟩
  | 12 => ⟨S_, .i32⟩
  | 13 => ⟨S393216, .i32⟩
  | 14 => ⟨S393216, .i32⟩
  | 15 => ⟨S393216, .i32⟩
  | 16 => ⟨S393216x1, .i32⟩
  | 17 => ⟨S393216x256, .f32⟩
  | 18 => ⟨S393216x1, .f32⟩
  | 19 => ⟨S393216x256, .f32⟩
  | 20 => ⟨S393216x256, .f32⟩
  | 21 => ⟨S_, .f32⟩
  | 22 => ⟨S12288x256, .f32⟩
  | 23 => ⟨S393216x1, .i32⟩
  | 24 => ⟨S12288x256, .f32⟩
  | 25 => ⟨S12288x1, .f32⟩
  | 26 => ⟨S12288x256, .f32⟩
  | 27 => ⟨S12288x256, .f32⟩
  | 28 => ⟨S12288x256, .f32⟩
  | 29 => ⟨S1x256, .f32⟩
  | 30 => ⟨S12288x256, .f32⟩
  | 31 => ⟨S12288x256, .f32⟩
  | 32 => ⟨S12288x64, .f32⟩
  | 33 => ⟨S_, .i32⟩
  | 34 => ⟨S393216, .i32⟩
  | 35 => ⟨S393216, .i1⟩
  | 36 => ⟨S_, .i32⟩
  | 37 => ⟨S393216, .i32⟩
  | 38 => ⟨S393216, .i32⟩
  | 39 => ⟨S393216, .i32⟩
  | 40 => ⟨S393216x1, .i32⟩
  | 41 => ⟨S393216x64, .f32⟩
  | 42 => ⟨S393216x1, .f32⟩
  | 43 => ⟨S393216x64, .f32⟩
  | 44 => ⟨S393216x64, .f32⟩
  | 45 => ⟨S_, .f32⟩
  | 46 => ⟨S12288x64, .f32⟩
  | 47 => ⟨S393216x1, .i32⟩
  | 48 => ⟨S12288x64, .f32⟩
  | 49 => ⟨S12288x1, .f32⟩
  | 50 => ⟨S12288x64, .f32⟩
  | 51 => ⟨S12288x64, .f32⟩
  | 52 => ⟨S12288x64, .f32⟩
  | 53 => ⟨S1x64, .f32⟩
  | 54 => ⟨S12288x64, .f32⟩
  | 55 => ⟨S12288x64, .f32⟩
  | 56 => ⟨S_, .f32⟩
  | 57 => ⟨S12288x64, .f32⟩
  | 58 => ⟨S12288x64, .f32⟩
  | 59 => ⟨S64x12288, .f32⟩
  | 60 => ⟨S12288x12288, .f32⟩
  | _ => ⟨S12288x256, .f32⟩

abbrev hbmTy (i : Nat) : BufTy := match i / 128 with
  | 0 => hbmTy0_0 i
  | 1 => hbmTy0_1 i
  | _ => ⟨S12288x256, .f32⟩

abbrev bufTy : (tb : Table) → Fin (tcTables nBuf tb) → BufTy
  | .hbm, ⟨i, _⟩ => hbmTy i
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call1_cst : Ref sig .tc := ⟨.hbm, 106, rfl⟩
abbrev main_call1_v0 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call2_cst : Ref sig .tc := ⟨.hbm, 133, rfl⟩
abbrev main_call2_v0 : Ref sig .tc := ⟨.hbm, 134, rfl⟩
abbrev main_v98 : Ref sig .tc := ⟨.hbm, 135, rfl⟩
abbrev main_v99 : Ref sig .tc := ⟨.hbm, 136, rfl⟩
abbrev main_c_17 : Ref sig .tc := ⟨.hbm, 137, rfl⟩
abbrev main_v100 : Ref sig .tc := ⟨.hbm, 138, rfl⟩
abbrev main_v101 : Ref sig .tc := ⟨.hbm, 139, rfl⟩
abbrev main_c_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_19 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_20 : Ref sig .tc := ⟨.hbm, 161, rfl⟩
abbrev main_v121 : Ref sig .tc := ⟨.hbm, 162, rfl⟩
abbrev main_v122 : Ref sig .tc := ⟨.hbm, 163, rfl⟩
abbrev main_c_21 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_22 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_call3_cst : Ref sig .tc := ⟨.hbm, 184, rfl⟩
abbrev main_call3_v0 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S12288 : S_.BroadcastsInDim S12288 (![] : Fin 0 → Fin S12288.rank)
  bcast_S_S393216 : S_.BroadcastsInDim S393216 (![] : Fin 0 → Fin S393216.rank)
  bcast_S393216_S393216x1_0 : S393216.BroadcastsInDim S393216x1 (![0] : Fin 1 → Fin S393216x1.rank)
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  bcast_S12288x1_S12288x64_0_1 : S12288x1.BroadcastsInDim S12288x64 (![0, 1] : Fin 2 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  bcast_S12288x1_S12288x256_0_1 : S12288x1.BroadcastsInDim S12288x256 (![0, 1] : Fin 2 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  transposes_S12288x64_S64x12288_1_0 : S12288x64.Transposes [1, 0] S64x12288
  scatter_S12288_S393216x1_S393216_n_0_0_1_wf : ScatterDims.WF S12288 S393216x1 S393216 [] [0] [0] 1
  gather_S12288_S393216x1_S393216_n_0_n_n_0_1_1_wf : GatherDims.WF S12288 S393216x1 S393216 [] [0] [] [0] [] 1 ![1]
  dot_S12288x256_S256x128_S12288x128_1_0_0_1_n_n_wf : DotDims.WF S12288x256 S256x128 S12288x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S12288x128_S128x64_S12288x64_1_0_0_1_n_n_wf : DotDims.WF S12288x128 S128x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x128_S12288x128_1_0_0_1_n_n_wf : DotDims.WF S12288x64 S64x128 S12288x128 [1] [0] [0] [1] [] []
  dot_S12288x128_S128x256_S12288x256_1_0_0_1_n_n_wf : DotDims.WF S12288x128 S128x256 S12288x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S12288x64_S64x64_S12288x64_1_0_0_1_n_n_wf : DotDims.WF S12288x64 S64x64 S12288x64 [1] [0] [0] [1] [] []
  dot_S12288x64_S64x12288_S12288x12288_1_0_0_1_n_n_wf : DotDims.WF S12288x64 S64x12288 S12288x12288 [1] [0] [0] [1] [] []

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x128_S12288x128_1_0_0_1_n_n : DotDims S12288x64 S64x128 S12288x128 where
  lhsContracting := [1]
  rhsContracting := [0]
  lhsNonContracting := [0]
  rhsNonContracting := [1]
  lhsBatch := []
  rhsBatch := []
  wf := dot_S12288x64_S64x128_S12288x128_1_0_0_1_n_n_wf
def dot_S12288x128_S128x256_S12288x256_1_0_0_1_n_n : DotDims S12288x128 S128x256 S12288x256 where
  lhsContracting := [1]
  rhsContracting := [0]
  lhsNonContracting := [0]
  rhsNonContracting := [1]
  lhsBatch := []
  rhsBatch := []
  wf := dot_S12288x128_S128x256_S12288x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.Reg0.lean ====
/-
  A matrix-product region of @main, entered with the TensorCore's buffers at ANY contents V: two input windows
  (a block of the left operand's rows per grid point, and the right operand's block) and one output window.
  Stated here: what block each window holds at a grid point; what the body leaves in the output window's
  buffer (the product it forms of the two loaded blocks, as the skeleton's payload of them); the body's triple;
  the pipeline's proof data over V and the body obligation at every point. The region's arrays are read off V,
  so the same text serves whatever the host operations before the region computed.
-/
import proofs.«135987_j23871428231489_1_alg».proof.Proof.Gen.KernelIdeal.Launch
import proofs.«135987_j23871428231489_1_alg».proof.Proof.Gen.KernelIdeal.Skeleton
import proofs.«135987_j23871428231489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block is in its staging buffer at every point, fetched there or not (unfetched, its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's block is in its staging buffer at every point, fetched there or not (unfetched, its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The output window's buffer after the body: its one whole-buffer store of the product of the two loaded blocks. -/
def out0_2 (x0 : Vec F S2048x256 .f32) (x1 : Vec F S256x128 .f32) : Vec F S2048x128 .f32 :=
  View.canon [⟨r0_2, k0_pay1 (View.ld x0 r0_0) (View.ld x1 r0_1)⟩]

/-- The one store covers the buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

set_option maxHeartbeats 1000000 in
/-- The body on whole staging memrefs: the two inputs' buffers are left as found, the output's (read once, the value
    unused) ends at `out0_2` of the inputs'. -/
theorem sound_kernel0 (c : Dev nD) (E : Set ℕ) (i : grid0.Coords) (arg1 : Memref sig .tc .vmem S2048x256 .f32) (harg1 : arg1.IsWhole)
    (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data over the entry contents: each input's buffer keeps its block, the output's ends at
    `out0_2` of the point's two input blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  A combination region of @main: a layer's out = agg + h · dinv + bias, rectified by a maximum with zero or not as the
  layer is (one block of 2048 rows of the aggregate, of h and of the inverse-degree column per grid point, the bias
  vector whole), entered with the TensorCore's buffers at ANY contents V. The arithmetic is the skeleton's payload of
  the four loaded blocks and is not opened here.
  Stated here: what block each window holds at a grid point; what the body leaves in the output window's
  buffer (the elementwise combination of the point's three row blocks with the bias); the body's triple; the
  pipeline's proof data over V and the body obligation at every point. The region's arrays are read off V, so
  the same text serves whatever the operations before the region computed.
-/
import proofs.«135987_j23871428231489_1_alg».proof.Proof.Gen.KernelIdeal.Launch
import proofs.«135987_j23871428231489_1_alg».proof.Proof.Gen.KernelIdeal.Skeleton
import proofs.«135987_j23871428231489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregate is in its staging buffer at every point (it is fetched at each). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The row block of h is in its staging buffer at every point (it is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the inverse-degree column is in its staging buffer at every point (it is fetched at each). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias vector is in its staging buffer at every point: fetched at the first, and its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S2048x128 := Rect.unit (s := S2048x128) ![0, 0] S2048x128.size inb_S2048x128_S2048x128_0_0
abbrev r1_1 : Rect S2048x128 := Rect.unit (s := S2048x128) ![0, 0] S2048x128.size inb_S2048x128_S2048x128_0_0
abbrev r1_2 : Rect S2048x1 := Rect.unit (s := S2048x1) ![0, 0] S2048x1.size inb_S2048x1_S2048x1_0_0
abbrev r1_3 : Rect S128 := Rect.unit (s := S128) ![0] S128.size inb_S128_S128_0
abbrev r1_4 : Rect S2048x128 := Rect.unit (s := S2048x128) ![0, 0] S2048x128.size inb_S2048x128_S2048x128_0_0

/-- The output window's buffer after the body: its one whole-buffer store of the combination of the four loaded blocks
    (the skeleton's payload of them: aggregate plus h scaled row by row by the inverse degree, plus the bias along the
    rows, and in a rectified layer the maximum of that with zero). -/
def out1_4 (x0 : Vec F S2048x128 .f32) (x1 : Vec F S2048x128 .f32) (x2 : Vec F S2048x1 .f32) (x3 : Vec F S128 .f32) : Vec F S2048x128 .f32 :=
  View.canon [⟨r1_4, k1_pay1 (View.ld x0 r1_0) (View.ld x1 r1_1) (View.ld x2 r1_2) (View.ld x3 r1_3)⟩]

/-- The one store covers the buffer. -/
theorem cover1_4 (p0 : Vec F S2048x128 .f32) (y : S2048x128.Idx) :
    ∃ pc ∈ ([⟨r1_4, p0⟩] : List (View.Piece (Elt F) S2048x128 .f32)), y ∈ pc.1.set :=
  View.cover_of_tiled [⟨r1_4, p0⟩] S2048x128.size (by rfl) y

set_option maxHeartbeats 1000000 in
/-- The body on whole staging memrefs: the four inputs' buffers are left as found, the output's (read once, the value
    unused) ends at `out1_4` of the inputs'. -/
theorem sound_kernel1 (c : Dev nD) (E : Set ℕ) (i : grid1.Coords) (arg1 : Memref sig .tc .vmem S2048x128 .f32) (harg1 : arg1.IsWhole)
    (arg2 : Memref sig .tc .vmem S2048x128 .f32) (harg2 : arg2.IsWhole) (arg3 : Memref sig .tc .vmem S2048x1 .f32) (harg3 : arg3.IsWhole)
    (arg4 : Memref sig .tc .vmem S128 .f32) (harg4 : arg4.IsWhole) (arg5 : Memref sig .tc .vmem S2048x128 .f32) (harg5 : arg5.IsWhole)
    (x0 : Vec F S2048x128 .f32) (x1 : Vec F S2048x128 .f32) (x2 : Vec F S2048x1 .f32) (x3 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data over the entry contents: each input's buffer keeps its block, the output's ends at
    `out1_4` of the point's four input blocks; the invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Fold.lean ====
/-
  The contents of the TensorCore's unscoped buffers at every boundary between two items of @main, as a chain from the
  launch memory: a stretch of host operations applies them; a region leaves its output window's array at what its
  write-backs make of it (the pipeline's array after the last grid point) and every other buffer as entered. From the
  chain: the contents the regions leave (the unknowns of the conditional frame, now named), and every pipeline's proof
  data at its region's entry contents.
-/
import proofs.«135987_j23871428231489_1_alg».proof.Proof.Reg0
import proofs.«135987_j23871428231489_1_alg».proof.Proof.Reg1
import proofs.«135987_j23871428231489_1_alg».proof.Proof.Reg2
import proofs.«135987_j23871428231489_1_alg».proof.Proof.Reg3
import proofs.«135987_j23871428231489_1_alg».proof.Proof.Reg4
import proofs.«135987_j23871428231489_1_alg».proof.Proof.Reg5
import proofs.«135987_j23871428231489_1_alg».proof.Proof.Reg6
import proofs.«135987_j23871428231489_1_alg».proof.Proof.Reg7
import proofs.«135987_j23871428231489_1_alg».proof.Proof.Reg8
import proofs.«135987_j23871428231489_1_alg».proof.Proof.Reg9
import proofs.«135987_j23871428231489_1_alg».proof.Proof.Reg10
import proofs.«135987_j23871428231489_1_alg».proof.Proof.Gen.KernelIdeal.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

variable (m : (ℓ : Loc nD τ sig) → Buf (Elt F) ℓ)

/-- At launch. -/
abbrev U0 (c : Dev nD) : Valuation τ sig (Elt F) := fun b => m (c, b)
/-- After the host stretch `hostOps0`. -/
abbrev U1 (c : Dev nD) : Valuation τ sig (Elt F) := StableHlo.after hostOps0 (U0 m c)
/-- What region 0 leaves in its output array `main_v34`: the pipeline's array after the last grid point, from the entry contents. -/
def O2 (c : Dev nD) : Buf (Elt F) ((c : Thread nD τ).loc main_v34) := (dat0 (fun c b => U1 m c b) c).arrAt 2 cfg0.N
/-- After region 0: its output array at that, every other buffer as entered. -/
abbrev U2 (c : Dev nD) : Valuation τ sig (Elt F) := Function.update (U1 m c) main_v34 (O2 m c)
/-- After the host stretch `hostOps1`. -/
abbrev U3 (c : Dev nD) : Valuation τ sig (Elt F) := StableHlo.after hostOps1 (U2 m c)
/-- What region 1 leaves in its output array `main_v48`: the pipeline's array after the last grid point, from the entry contents. -/
def O4 (c : Dev nD) : Buf (Elt F) ((c : Thread nD τ).loc main_v48) := (dat1 (fun c b => U3 m c b) c).arrAt 4 cfg1.N
/-- After region 1: its output array at that, every other buffer as entered. -/
abbrev U4 (c : Dev nD) : Valuation τ sig (Elt F) := Function.update (U3 m c) main_v48 (O4 m c)
/-- What region 2 leaves in its output array `main_v49`: the pipeline's array after the last grid point, from the entry contents. -/
def O5 (c : Dev nD) : Buf (Elt F) ((c : Thread nD τ).loc main_v49) := (dat2 (fun c b => U4 m c b) c).arrAt 2 cfg2.N
/-- After region 2: its output array at that, every other buffer as entered. -/
abbrev U5 (c : Dev nD) : Valuation τ sig (Elt F) := Function.update (U4 m c) main_v49 (O5 m c)
/-- After the host stretch `hostOps3`. -/
abbrev U6 (c : Dev nD) : Valuation τ sig (Elt F) := StableHlo.after hostOps3 (U5 m c)
/-- What region 3 leaves in its output array `main_v63`: the pipeline's array after the last grid point, from the entry contents. -/
def O7 (c : Dev nD) : Buf (Elt F) ((c : Thread nD τ).loc main_v63) := (dat3 (fun c b => U6 m c b) c).arrAt 4 cfg3.N
/-- After region 3: its output array at that, every other buffer as entered. -/
abbrev U7 (c : Dev nD) : Valuation τ sig (Elt F) := Function.update (U6 m c) main_v63 (O7 m c)
/-- What region 4 leaves in its output array `main_v64`: the pipeline's array after the last grid point, from the entry contents. -/
def O8 (c : Dev nD) : Buf (Elt F) ((c : Thread nD τ).loc main_v64) := (dat4 (fun c b => U7 m c b) c).arrAt 2 cfg4.N
/-- After region 4: its output array at that, every other buffer as entered. -/
abbrev U8 (c : Dev nD) : Valuation τ sig (Elt F) := Function.update (U7 m c) main_v64 (O8 m c)
/-- After the host stretch `hostOps5`. -/
abbrev U9 (c : Dev nD) : Valuation τ sig (Elt F) := StableHlo.after hostOps5 (U8 m c)
/-- What region 5 leaves in its output array `main_v78`: the pipeline's array after the last grid point, from the entry contents. -/
def O10 (c : Dev nD) : Buf (Elt F) ((c : Thread nD τ).loc main_v78) := (dat5 (fun c b => U9 m c b) c).arrAt 4 cfg5.N
/-- After region 5: its output array at that, every other buffer as entered. -/
abbrev U10 (c : Dev nD) : Valuation τ sig (Elt F) := Function.update (U9 m c) main_v78 (O10 m c)
/-- What region 6 leaves in its output array `main_v79`: the pipeline's array after the last grid point, from the entry contents. -/
def O11 (c : Dev nD) : Buf (Elt F) ((c : Thread nD τ).loc main_v79) := (dat6 (fun c b => U10 m c b) c).arrAt 2 cfg6.N
/-- After region 6: its output array at that, every other buffer as entered. -/
abbrev U11 (c : Dev nD) : Valuation τ sig (Elt F) := Function.update (U10 m c) main_v79 (O11 m c)
/-- After the host stretch `hostOps7`. -/
abbrev U12 (c : Dev nD) : Valuation τ sig (Elt F) := StableHlo.after hostOps7 (U11 m c)
/-- What region 7 leaves in its output array `main_v93`: the pipeline's array after the last grid point, from the entry contents. -/
def O13 (c : Dev nD) : Buf (Elt F) ((c : Thread nD τ).loc main_v93) := (dat7 (fun c b => U12 m c b) c).arrAt 4 cfg7.N
/-- After region 7: its output array at that, every other buffer as entered. -/
abbrev U13 (c : Dev nD) : Valuation τ sig (Elt F) := Function.update (U12 m c) main_v93 (O13 m c)
/-- What region 8 leaves in its output array `main_v94`: the pipeline's array after the last grid point, from the entry contents. -/
def O14 (c : Dev nD) : Buf (Elt F) ((c : Thread nD τ).loc main_v94) := (dat8 (fun c b => U13 m c b) c).arrAt 2 cfg8.N
/-- After region 8: its output array at that, every other buffer as entered. -/
abbrev U14 (c : Dev nD) : Valuation τ sig (Elt F) := Function.update (U13 m c) main_v94 (O14 m c)
/-- After the host stretch `hostOps9`. -/
abbrev U15 (c : Dev nD) : Valuation τ sig (Elt F) := StableHlo.after hostOps9 (U14 m c)
/-- What region 9 leaves in its output array `main_v108`: the pipeline's array after the last grid point, from the entry contents. -/
def O16 (c : Dev nD) : Buf (Elt F) ((c : Thread nD τ).loc main_v108) := (dat9 (fun c b => U15 m c b) c).arrAt 4 cfg9.N
/-- After region 9: its output array at that, every other buffer as entered. -/
abbrev U16 (c : Dev nD) : Valuation τ sig (Elt F) := Function.update (U15 m c) main_v108 (O16 m c)
/-- What region 10 leaves in its output array `main_v109`: the pipeline's array after the last grid point, from the entry contents. -/
def O17 (c : Dev nD) : Buf (Elt F) ((c : Thread nD τ).loc main_v109) := (dat10 (fun c b => U16 m c b) c).arrAt 2 cfg10.N
/-- After region 10: its output array at that, every other buffer as entered. -/
abbrev U17 (c : Dev nD) : Valuation τ sig (Elt F) := Function.update (U16 m c) main_v109 (O17 m c)

/-- The contents the regions leave, read at the boundaries the conditional frame names. -/
def outs : Outs (F := F) := fun j r c => match j with
  | 2 => U2 m c r
  | 4 => U4 m c r
  | 5 => U5 m c r
  | 7 => U7 m c r
  | 8 => U8 m c r
  | 10 => U10 m c r
  | 11 => U11 m c r
  | 13 => U13 m c r
  | 14 => U14 m c r
  | 16 => U16 m c r
  | 17 => U17 m c r
  | _ => m (c, r)

/-! The conditional frame's boundary contents over these unknowns are the chain's. -/
theorem V1_eq (c : Dev nD) : V1 m c = U1 m c := rfl
theorem V2_eq (c : Dev nD) : V2 m (outs m) c = U2 m c := by
  show Function.update (V1 m c) main_v34 (U2 m c main_v34) = _
  rw [V1_eq, show U2 m c main_v34 = O2 m c from Function.update_self _ _ _]
theorem V3_eq (c : Dev nD) : V3 m (outs m) c = U3 m c := by
  show StableHlo.after hostOps1 (V2 m (outs m) c) = _
  rw [V2_eq]
theorem V4_eq (c : Dev nD) : V4 m (outs m) c = U4 m c := by
  show Function.update (V3 m (outs m) c) main_v48 (U4 m c main_v48) = _
  rw [V3_eq, show U4 m c main_v48 = O4 m c from Function.update_self _ _ _]
theorem V5_eq (c : Dev nD) : V5 m (outs m) c = U5 m c := by
  show Function.update (V4 m (outs m) c) main_v49 (U5 m c main_v49) = _
  rw [V4_eq, show U5 m c main_v49 = O5 m c from Function.update_self _ _ _]
theorem V6_eq (c : Dev nD) : V6 m (outs m) c = U6 m c := by
  show StableHlo.after hostOps3 (V5 m (outs m) c) = _
  rw [V5_eq]
theorem V7_eq (c : Dev nD) : V7 m (outs m) c = U7 m c := by
  show Function.update (V6 m (outs m) c) main_v63 (U7 m c main_v63) = _
  rw [V6_eq, show U7 m c main_v63 = O7 m c from Function.update_self _ _ _]
theorem V8_eq (c : Dev nD) : V8 m (outs m) c = U8 m c := by
  show Function.update (V7 m (outs m) c) main_v64 (U8 m c main_v64) = _
  rw [V7_eq, show U8 m c main_v64 = O8 m c from Function.update_self _ _ _]
theorem V9_eq (c : Dev nD) : V9 m (outs m) c = U9 m c := by
  show StableHlo.after hostOps5 (V8 m (outs m) c) = _
  rw [V8_eq]
theorem V10_eq (c : Dev nD) : V10 m (outs m) c = U10 m c := by
  show Function.update (V9 m (outs m) c) main_v78 (U10 m c main_v78) = _
  rw [V9_eq, show U10 m c main_v78 = O10 m c from Function.update_self _ _ _]
theorem V11_eq (c : Dev nD) : V11 m (outs m) c = U11 m c := by
  show Function.update (V10 m (outs m) c) main_v79 (U11 m c main_v79) = _
  rw [V10_eq, show U11 m c main_v79 = O11 m c from Function.update_self _ _ _]
theorem V12_eq (c : Dev nD) : V12 m (outs m) c = U12 m c := by
  show StableHlo.after hostOps7 (V11 m (outs m) c) = _
  rw [V11_eq]
theorem V13_eq (c : Dev nD) : V13 m (outs m) c = U13 m c := by
  show Function.update (V12 m (outs m) c) main_v93 (U13 m c main_v93) = _
  rw [V12_eq, show U13 m c main_v93 = O13 m c from Function.update_self _ _ _]
theorem V14_eq (c : Dev nD) : V14 m (outs m) c = U14 m c := by
  show Function.update (V13 m (outs m) c) main_v94 (U14 m c main_v94) = _
  rw [V13_eq, show U14 m c main_v94 = O14 m c from Function.update_self _ _ _]
theorem V15_eq (c : Dev nD) : V15 m (outs m) c = U15 m c := by
  show StableHlo.after hostOps9 (V14 m (outs m) c) = _
  rw [V14_eq]
theorem V16_eq (c : Dev nD) : V16 m (outs m) c = U16 m c := by
  show Function.update (V15 m (outs m) c) main_v108 (U16 m c main_v108) = _
  rw [V15_eq, show U16 m c main_v108 = O16 m c from Function.update_self _ _ _]
theorem V17_eq (c : Dev nD) : V17 m (outs m) c = U17 m c := by
  show Function.update (V16 m (outs m) c) main_v109 (U17 m c main_v109) = _
  rw [V16_eq, show U17 m c main_v109 = O17 m c from Function.update_self _ _ _]

/-! What each item leaves alone: a host stretch every buffer it does not write, a region every buffer but its output array. -/
theorem U1_of (c : Dev nD) (r : Ref sig .tc) (h : r ∉ hostOps0_W) : U1 m c r = U0 m c r := V1_of m c r h
theorem U2_self (c : Dev nD) : U2 m c main_v34 = O2 m c := Function.update_self _ _ _
theorem U2_of (c : Dev nD) (r : Ref sig .tc) (h : r ≠ main_v34) : U2 m c r = U1 m c r :=
  Function.update_of_ne (StableHlo.devRef_ne_of_ne h) _ _
theorem U3_of (c : Dev nD) (r : Ref sig .tc) (h : r ∉ hostOps1_W) : U3 m c r = U2 m c r := by
  have h' := V3_of m (outs m) c r h; rwa [V3_eq, V2_eq] at h'
theorem U4_self (c : Dev nD) : U4 m c main_v48 = O4 m c := Function.update_self _ _ _
theorem U4_of (c : Dev nD) (r : Ref sig .tc) (h : r ≠ main_v48) : U4 m c r = U3 m c r :=
  Function.update_of_ne (StableHlo.devRef_ne_of_ne h) _ _
theorem U5_self (c : Dev nD) : U5 m c main_v49 = O5 m c := Function.update_self _ _ _
theorem U5_of (c : Dev nD) (r : Ref sig .tc) (h : r ≠ main_v49) : U5 m c r = U4 m c r :=
  Function.update_of_ne (StableHlo.devRef_ne_of_ne h) _ _
theorem U6_of (c : Dev nD) (r : Ref sig .tc) (h : r ∉ hostOps3_W) : U6 m c r = U5 m c r := by
  have h' := V6_of m (outs m) c r h; rwa [V6_eq, V5_eq] at h'
theorem U7_self (c : Dev nD) : U7 m c main_v63 = O7 m c := Function.update_self _ _ _
theorem U7_of (c : Dev nD) (r : Ref sig .tc) (h : r ≠ main_v63) : U7 m c r = U6 m c r :=
  Function.update_of_ne (StableHlo.devRef_ne_of_ne h) _ _
theorem U8_self (c : Dev nD) : U8 m c main_v64 = O8 m c := Function.update_self _ _ _
theorem U8_of (c : Dev nD) (r : Ref sig .tc) (h : r ≠ main_v64) : U8 m c r = U7 m c r :=
  Function.update_of_ne (StableHlo.devRef_ne_of_ne h) _ _
theorem U9_of (c : Dev nD) (r : Ref sig .tc) (h : r ∉ hostOps5_W) : U9 m c r = U8 m c r := by
  have h' := V9_of m (outs m) c r h; rwa [V9_eq, V8_eq] at h'
theorem U10_self (c : Dev nD) : U10 m c main_v78 = O10 m c := Function.update_self _ _ _
theorem U10_of (c : Dev nD) (r : Ref sig .tc) (h : r ≠ main_v78) : U10 m c r = U9 m c r :=
  Function.update_of_ne (StableHlo.devRef_ne_of_ne h) _ _
theorem U11_self (c : Dev nD) : U11 m c main_v79 = O11 m c := Function.update_self _ _ _
theorem U11_of (c : Dev nD) (r : Ref sig .tc) (h : r ≠ main_v79) : U11 m c r = U10 m c r :=
  Function.update_of_ne (StableHlo.devRef_ne_of_ne h) _ _
theorem U12_of (c : Dev nD) (r : Ref sig .tc) (h : r ∉ hostOps7_W) : U12 m c r = U11 m c r := by
  have h' := V12_of m (outs m) c r h; rwa [V12_eq, V11_eq] at h'
theorem U13_self (c : Dev nD) : U13 m c main_v93 = O13 m c := Function.update_self _ _ _
theorem U13_of (c : Dev nD) (r : Ref sig .tc) (h : r ≠ main_v93) : U13 m c r = U12 m c r :=
  Function.update_of_ne (StableHlo.devRef_ne_of_ne h) _ _
theorem U14_self (c : Dev nD) : U14 m c main_v94 = O14 m c := Function.update_self _ _ _
theorem U14_of (c : Dev nD) (r : Ref sig .tc) (h : r ≠ main_v94) : U14 m c r = U13 m c r :=
  Function.update_of_ne (StableHlo.devRef_ne_of_ne h) _ _
theorem U15_of (c : Dev nD) (r : Ref sig .tc) (h : r ∉ hostOps9_W) : U15 m c r = U14 m c r := by
  have h' := V15_of m (outs m) c r h; rwa [V15_eq, V14_eq] at h'
theorem U16_self (c : Dev nD) : U16 m c main_v108 = O16 m c := Function.update_self _ _ _
theorem U16_of (c : Dev nD) (r : Ref sig .tc) (h : r ≠ main_v108) : U16 m c r = U15 m c r :=
  Function.update_of_ne (StableHlo.devRef_ne_of_ne h) _ _
theorem U17_self (c : Dev nD) : U17 m c main_v109 = O17 m c := Function.update_self _ _ _
theorem U17_of (c : Dev nD) (r : Ref sig .tc) (h : r ≠ main_v109) : U17 m c r = U16 m c r :=
  Function.update_of_ne (StableHlo.devRef_ne_of_ne h) _ _

/-- Every pipeline's proof data, each at its region's entry contents (a literal match on the pipeline's index). -/
def pdats : (p : Fin 11) → (c : Dev nD) → Dat τ (Elt F) Unit ℕ (UR sig nD τ) ℕ (cfgs p) c
  | ⟨0, _⟩ => fun c => dat0 (fun c b => U1 m c b) c
  | ⟨1, _⟩ => fun c => dat1 (fun c b => U3 m c b) c
  | ⟨2, _⟩ => fun c => dat2 (fun c b => U4 m c b) c
  | ⟨3, _⟩ => fun c => dat3 (fun c b => U6 m c b) c
  | ⟨4, _⟩ => fun c => dat4 (fun c b => U7 m c b) c
  | ⟨5, _⟩ => fun c => dat5 (fun c b => U9 m c b) c
  | ⟨6, _⟩ => fun c => dat6 (fun c b => U10 m c b) c
  | ⟨7, _⟩ => fun c => dat7 (fun c b => U12 m c b) c
  | ⟨8, _⟩ => fun c => dat8 (fun c b => U13 m c b) c
  | ⟨9, _⟩ => fun c => dat9 (fun c b => U15 m c b) c
  | ⟨10, _⟩ => fun c => dat10 (fun c b => U16 m c b) c

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item of @main: the core's generator register at some state and its
    `owes`, at nothing. -/
abbrev Rr (c : Dev nD) : sProp 𝕄 := iprop((∃ r, prngReg c r) ∗ ∃ W, owes (c : Thread nD τ) (0 : CellTallies nD τ sig Unit) W)

end Cert.KernelIdeal.Hand

end
-- ==== Proof.Seg0.lean ====
/-
  Region 0 of @main as an item of the run: entered with every unscoped buffer at the contents the item of @main
  before it left, left with its output array at what the pipeline's write-backs make of it and every other buffer
  as entered. Its arrays are split out of the unscoped buffers on entry and put back on exit; the generator register
  goes into the kernel's invariant and comes back; nothing is owed; the kernel has no semaphore of its own.
-/
import proofs.«135987_j23871428231489_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the inputs as entered, the output the
    write-backs' result. -/
theorem hF0 (c : Dev nD) (w : Fin cfg0.W) : (dat0 (fun c b => U1 m c b) c).arrAt w cfg0.N = U2 m c (Pipeline.arrRef spec0 w) :=
  match w with
  | ⟨0, _⟩ => by
    show (dat0 (fun c b => U1 m c b) c).arrAt 0 cfg0.N = U2 m c main_arg0
    rw [U2_of m c main_arg0 (by decide), (dat0 (fun c b => U1 m c b) c).arrAt_in 0 rfl]; exact A_eq0 _ c 0
  | ⟨1, _⟩ => by
    show (dat0 (fun c b => U1 m c b) c).arrAt 1 cfg0.N = U2 m c main_arg2
    rw [U2_of m c main_arg2 (by decide), (dat0 (fun c b => U1 m c b) c).arrAt_in 1 rfl]; exact A_eq0 _ c 1
  | ⟨2, _⟩ => (U2_self m c).symm

/-- Every other buffer is as entered. -/
theorem hrest0 (c : Dev nD) : ∀ b, b ∉ Finset.univ.image (Pipeline.arrRef spec0) → U2 m c b = U1 m c b :=
  fun b hb => U2_of m c b fun e => hb (Finset.mem_image.mpr ⟨2, Finset.mem_univ _, by rw [e]⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => U1 m c b) c).loose
  hwaits := Pipeline.hwaits_of_owed_zero _ _ _ _ L lv 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (fun b => U1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => U1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => U1 m c b) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg1.lean ====
/-
  Region 1 of @main as an item of the run: entered with every unscoped buffer at the contents the item of @main
  before it left, left with its output array at what the pipeline's write-backs make of it and every other buffer
  as entered. Its arrays are split out of the unscoped buffers on entry and put back on exit; the generator register
  goes into the kernel's invariant and comes back; nothing is owed; the kernel has no semaphore of its own.
-/
import proofs.«135987_j23871428231489_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the inputs as entered, the output the
    write-backs' result. -/
theorem hF1 (c : Dev nD) (w : Fin cfg1.W) : (dat1 (fun c b => U3 m c b) c).arrAt w cfg1.N = U4 m c (Pipeline.arrRef spec1 w) :=
  match w with
  | ⟨0, _⟩ => by
    show (dat1 (fun c b => U3 m c b) c).arrAt 0 cfg1.N = U4 m c main_v47
    rw [U4_of m c main_v47 (by decide), (dat1 (fun c b => U3 m c b) c).arrAt_in 0 rfl]; exact A_eq1 _ c 0
  | ⟨1, _⟩ => by
    show (dat1 (fun c b => U3 m c b) c).arrAt 1 cfg1.N = U4 m c main_v34
    rw [U4_of m c main_v34 (by decide), (dat1 (fun c b => U3 m c b) c).arrAt_in 1 rfl]; exact A_eq1 _ c 1
  | ⟨2, _⟩ => by
    show (dat1 (fun c b => U3 m c b) c).arrAt 2 cfg1.N = U4 m c main_v33
    rw [U4_of m c main_v33 (by decide), (dat1 (fun c b => U3 m c b) c).arrAt_in 2 rfl]; exact A_eq1 _ c 2
  | ⟨3, _⟩ => by
    show (dat1 (fun c b => U3 m c b) c).arrAt 3 cfg1.N = U4 m c main_arg3
    rw [U4_of m c main_arg3 (by decide), (dat1 (fun c b => U3 m c b) c).arrAt_in 3 rfl]; exact A_eq1 _ c 3
  | ⟨4, _⟩ => (U4_self m c).symm

/-- Every other buffer is as entered. -/
theorem hrest1 (c : Dev nD) : ∀ b, b ∉ Finset.univ.image (Pipeline.arrRef spec1) → U4 m c b = U3 m c b :=
  fun b hb => U4_of m c b fun e => hb (Finset.mem_image.mpr ⟨4, Finset.mem_univ _, by rw [e]⟩)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => U3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U3 m c b) (fun b => U4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg10.lean ====
/-
  Region 10 of @main as an item of the run: entered with every unscoped buffer at the contents region 9 left, left
  with its output array at what the pipeline's write-backs make of it and every other buffer as entered. Two of its
  windows read ONE array: on entry that array's full share is dealt in two halves, the left half to the first
  window and the right half to the second, and on exit the two halves, both still at the entry contents, are joined
  back into the full share. The generator register goes into the kernel's invariant and comes back; nothing is
  owed; the kernel has no semaphore of its own.
-/
import proofs.«135987_j23871428231489_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the region's three windows are two: the shared input array and the output array. -/
theorem arrImage10 : Finset.univ.image (Pipeline.arrRef spec10) = ({main_v108, main_v109} : Finset (Ref sig .tc)) := by
  decide

section Shares

variable (V₀ : (c : Dev nD) → (b : Ref sig .tc) → Buf (Elt F) ((c : Thread nD τ).loc b))

/-- The proof data holds the shared array's left half for the first window, its right half for the second, and the
    output array whole. -/
theorem share10_0 (c : Dev nD) : (dat10 V₀ c).share 0 = fullShare.left := rfl
theorem share10_1 (c : Dev nD) : (dat10 V₀ c).share 1 = fullShare.right := rfl
theorem share10_2 (c : Dev nD) : (dat10 V₀ c).share 2 = fullShare := rfl

/-- ENTRY: the two buffers behind the windows, each whole at the full share at contents `V`, are the pipeline's arrays
    at contents that read `V` at each window's buffer: the shared array's full share splits into its two halves. -/
theorem arrays10_of_arrBufs (c : Dev nD) (V : (b : Ref sig .tc) → Buf (Elt F) ((c : Thread nD τ).loc b))
    (Fw : (w : Fin cfg10.W) → Buf (Elt F) ((cfg10.win w).arr.view.loc (c : Thread nD τ)))
    (h0 : Fw 0 = V main_v108) (h1 : Fw 1 = V main_v108) (h2 : Fw 2 = V main_v109) :
    (Pipeline.arrBufs spec10 c V : sProp 𝕄) ⊢ (dat10 V₀ c).arrays Fw := by
  unfold Pipeline.arrBufs Dat.arrays
  rw [arrImage10, bigSep_W10, bigSep_insert (by decide), bigSep_singleton]
  rw [show (cfg10.win 0).arr.view.set = Finset.univ from (arr_whole10 0).set_eq_univ,
    show (cfg10.win 2).arr.view.set = Finset.univ from (arr_whole10 2).set_eq_univ,
    share10_0, share10_1, share10_2, h0, h1, h2]
  show iprop(((c : Thread nD τ).loc main_v108 ↦{fullShare} V main_v108) ∗ ((c : Thread nD τ).loc main_v109 ↦{fullShare} V main_v109)) ⊢ _
  iintro ⟨H8, H9⟩
  ihave H := (pointsTo_share (PosShare.mem_left_op_right fullShare)).1 $$ H8
  icases H with ⟨Hl, Hr⟩
  isplitl [Hl]; · iexact Hl
  isplitl [Hr]; · iexact Hr
  iexact H9

/-- EXIT: the converse; the two halves of the shared array, at the same contents, join into its full share. -/
theorem arrBufs10_of_arrays (c : Dev nD) (V : (b : Ref sig .tc) → Buf (Elt F) ((c : Thread nD τ).loc b))
    (Fw : (w : Fin cfg10.W) → Buf (Elt F) ((cfg10.win w).arr.view.loc (c : Thread nD τ)))
    (h0 : Fw 0 = V main_v108) (h1 : Fw 1 = V main_v108) (h2 : Fw 2 = V main_v109) :
    (dat10 V₀ c).arrays Fw ⊢ (Pipeline.arrBufs spec10 c V : sProp 𝕄) := by
  unfold Pipeline.arrBufs Dat.arrays
  rw [arrImage10, bigSep_W10, bigSep_insert (by decide), bigSep_singleton]
  rw [show (cfg10.win 0).arr.view.set = Finset.univ from (arr_whole10 0).set_eq_univ,
    show (cfg10.win 2).arr.view.set = Finset.univ from (arr_whole10 2).set_eq_univ,
    share10_0, share10_1, share10_2, h0, h1, h2]
  show _ ⊢ iprop(((c : Thread nD τ).loc main_v108 ↦{fullShare} V main_v108) ∗ ((c : Thread nD τ).loc main_v109 ↦{fullShare} V main_v109))
  iintro ⟨Hl, Hr, H9⟩
  isplitl [Hl Hr]
  · iapply (pointsTo_share (PosShare.mem_left_op_right fullShare)).2
    isplitl [Hl]; · iexact Hl
    iexact Hr
  iexact H9

end Shares

variable (m : (ℓ : Loc nD τ sig) → Buf (Elt F) ℓ)

/-- At the region's exit each window's array holds what the pipeline leaves: the shared input array as entered, under
    either window, and the output array the write-backs' result. -/
theorem hF10_0 (c : Dev nD) : (dat10 (fun c b => U16 m c b) c).arrAt 0 cfg10.N = U17 m c main_v108 := by
  rw [U17_of m c main_v108 (by decide), (dat10 (fun c b => U16 m c b) c).arrAt_in 0 rfl]; exact A_eq10 _ c 0
theorem hF10_1 (c : Dev nD) : (dat10 (fun c b => U16 m c b) c).arrAt 1 cfg10.N = U17 m c main_v108 := by
  rw [U17_of m c main_v108 (by decide), (dat10 (fun c b => U16 m c b) c).arrAt_in 1 rfl]; exact A_eq10 _ c 1
theorem hF10_2 (c : Dev nD) : (dat10 (fun c b => U16 m c b) c).arrAt 2 cfg10.N = U17 m c main_v109 :=
  (U17_self m c).symm

/-- Every buffer that is no window's array is as entered. -/
theorem hrest10 (c : Dev nD) : ∀ b, b ∉ Finset.univ.image (Pipeline.arrRef spec10) → U17 m c b = U16 m c b :=
  fun b hb => U17_of m c b fun e => hb (Finset.mem_image.mpr ⟨2, Finset.mem_univ _, by rw [e]⟩)

/-- ENTRY, the arrays' part: the core's unscoped buffers at the entry contents are the pipeline's arrays at the proof
    data's entry contents and the unscoped rest. -/
theorem arrays10_of_unscopedBufs (c : Dev nD) :
    (unscopedBufs c (fun b => U16 m c b) : sProp 𝕄)
      ⊢ iprop((pdats m 10 c).arrays ((pdats m 10 c).arrAt · 0)
          ∗ Pipeline.unscopedRest spec10 c (fun b => U16 m c b)) := by
  rw [Pipeline.unscopedBufs_split₀ cfgs 10 winFacts₀10.arr_unscoped c (fun b => U16 m c b)]
  exact sep_mono (arrays10_of_arrBufs (fun c b => U16 m c b) c (fun b => U16 m c b)
    ((dat10 (fun c b => U16 m c b) c).arrAt · 0) (A_eq10 _ c 0) (A_eq10 _ c 1) (A_eq10 _ c 2)) .rfl

/-- EXIT, the arrays' part: the pipeline's arrays at their final contents and the unscoped rest as entered are the
    core's unscoped buffers at the exit contents. -/
theorem unscopedBufs10_of_arrays (c : Dev nD) :
    iprop((pdats m 10 c).arrays ((pdats m 10 c).arrAt · cfg10.N)
        ∗ Pipeline.unscopedRest spec10 c (fun b => U16 m c b))
      ⊢ (unscopedBufs c (fun b => U17 m c b) : sProp 𝕄) := by
  rw [Pipeline.unscopedBufs_split₀ cfgs 10 winFacts₀10.arr_unscoped c (fun b => U17 m c b)]
  refine sep_mono (arrBufs10_of_arrays (fun c b => U16 m c b) c (fun b => U17 m c b)
    ((dat10 (fun c b => U16 m c b) c).arrAt · cfg10.N) (hF10_0 m c) (hF10_1 m c) (hF10_2 m c)) (Entails.of_eq ?_)
  unfold Pipeline.unscopedRest
  exact bigSep_congr fun b hb => by beta_reduce; rw [hrest10 m c b (Finset.mem_sdiff.mp hb).2]

set_option backward.isDefEq.respectTransparency.types false in
def reg10 : Pipeline.RegionSeg (pcfgs (F := F)) adm (pdats m) () defs₀ 𝒱₀ L lv 10 where
  win := winFacts₀10
  block_pos := block_pos10
  stage_whole := stage_whole10
  K := PEmpty
  osem k := k.elim
  ho := Pipeline.OwnSemFacts.none _
  hbody c := (body_obligation10 (fun c b => U16 m c b) c).loose
  hwaits := Pipeline.hwaits_of_owed_zero _ _ _ _ L lv 10 fun _ _ => rfl
  pre c := iprop(StableHlo.held (c : Thread nD τ) (Pipeline.ucRefs τ sig) (U16 m c) ∗ Rr c)
  post c := iprop(StableHlo.held (c : Thread nD τ) (Pipeline.ucRefs τ sig) (U17 m c) ∗ Rr c)
  X c := iprop(∃ r, prngReg c r)
  Y c := iprop(∃ r, prngReg c r)
  Z c := Pipeline.unscopedRest (Ix := Unit) (Name := ℕ) (U := UR sig nD τ) (Lvl := ℕ) spec10 c (fun b => U16 m c b)
  hentry c := by
    rw [Pipeline.ownSems0_none]
    have hsplit := arrays10_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := unscopedBufs10_of_arrays m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Frame.lean ====
/-
  The kernel program's frame: the conditional frame discharged with the eleven regions' records. Between two items
  of @main every unscoped buffer is at the chain's contents, beside the generator register at some state and the core
  owing nothing. Every argument array ends as launched.
-/
import proofs.«135987_j23871428231489_1_alg».proof.Proof.Seg0
import proofs.«135987_j23871428231489_1_alg».proof.Proof.Seg1
import proofs.«135987_j23871428231489_1_alg».proof.Proof.Seg2
import proofs.«135987_j23871428231489_1_alg».proof.Proof.Seg3
import proofs.«135987_j23871428231489_1_alg».proof.Proof.Seg4
import proofs.«135987_j23871428231489_1_alg».proof.Proof.Seg5
import proofs.«135987_j23871428231489_1_alg».proof.Proof.Seg6
import proofs.«135987_j23871428231489_1_alg».proof.Proof.Seg7
import proofs.«135987_j23871428231489_1_alg».proof.Proof.Seg8
import proofs.«135987_j23871428231489_1_alg».proof.Proof.Seg9
import proofs.«135987_j23871428231489_1_alg».proof.Proof.Seg10

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m (EP := emb₁) (ι := ()) (𝒱₀ := 𝒱₀) (L := L) (lv := lv) (hL := fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE11 := fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V10_eq]; exact .rfl) (fun c => by rw [V11_eq]; exact .rfl)
    (reg7 m) (fun c => by rw [V12_eq]; exact .rfl) (fun c => by rw [V13_eq]; exact .rfl)
    (reg8 m) (fun c => by rw [V13_eq]; exact .rfl) (fun c => by rw [V14_eq]; exact .rfl)
    (reg9 m) (fun c => by rw [V15_eq]; exact .rfl) (fun c => by rw [V16_eq]; exact .rfl)
    (reg10 m) (fun c => by rw [V16_eq]; exact .rfl) (fun c => by rw [V17_eq]; exact .rfl)

end Cert.KernelIdeal.Hand

end
-- ==== Proof.RunMain.lean ====
/-
  The kernel program's run with its results: the same launch as the frame's, with each of the three result arrays read
  at the chain's last contents.
-/
import proofs.«135987_j23871428231489_1_alg».proof.Proof.Seg0
import proofs.«135987_j23871428231489_1_alg».proof.Proof.Seg1
import proofs.«135987_j23871428231489_1_alg».proof.Proof.Seg2
import proofs.«135987_j23871428231489_1_alg».proof.Proof.Seg3
import proofs.«135987_j23871428231489_1_alg».proof.Proof.Seg4
import proofs.«135987_j23871428231489_1_alg».proof.Proof.Seg5
import proofs.«135987_j23871428231489_1_alg».proof.Proof.Seg6
import proofs.«135987_j23871428231489_1_alg».proof.Proof.Seg7
import proofs.«135987_j23871428231489_1_alg».proof.Proof.Seg8
import proofs.«135987_j23871428231489_1_alg».proof.Proof.Seg9
import proofs.«135987_j23871428231489_1_alg».proof.Proof.Seg10
import proofs.«135987_j23871428231489_1_alg».proof.Proof.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results: as the frame, and each result array ends at the chain's last contents. -/
theorem run_main : θ_run defs (onTc (τ := τ) (main (F := F))) ⟨m, fun _ => 0, ρ⟩ (fun r => ∀ c : Dev nD,
      r.2.mem ((c.tc : Thread nD τ).loc main_v93) = U17 m c main_v93
      ∧ r.2.mem ((c.tc : Thread nD τ).loc main_v109) = U17 m c main_v109
      ∧ r.2.mem ((c.tc : Thread nD τ).loc main_v63) = U17 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by have h' := h c; rw [V17_eq] at h'; exact h')
    (run_cond m (EP := emb₁) (ι := ()) (𝒱₀ := 𝒱₀) (L := L) (lv := lv) (hL := fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE11 := fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V10_eq]; exact .rfl) (fun c => by rw [V11_eq]; exact .rfl)
    (reg7 m) (fun c => by rw [V12_eq]; exact .rfl) (fun c => by rw [V13_eq]; exact .rfl)
    (reg8 m) (fun c => by rw [V13_eq]; exact .rfl) (fun c => by rw [V14_eq]; exact .rfl)
    (reg9 m) (fun c => by rw [V15_eq]; exact .rfl) (fun c => by rw [V16_eq]; exact .rfl)
    (reg10 m) (fun c => by rw [V16_eq]; exact .rfl) (fun c => by rw [V17_eq]; exact .rfl))

end Cert.KernelIdeal.Hand

end
-- ==== Proof.ValMM0.lean ====
/-
  The value of a matrix-product region at extended reals. The region's grid has 6 points; point t multiplies rows
  2048·t … 2048·t + 2047 of the left array (a [2048,256] block) by the whole [256,128] right array and writes the
  [2048,128] product to the same rows of the output. Read at an index, the body's product is the plain sum over the
  256 contraction positions (narrowing the operands is the identity on extended reals, a cast to the same shape is
  the identity, and the accumulator is zero), and so is the reference's dot_general; row 2048·t + p of the left array
  is row p of its block t. Hence every block written back is the block of the reference's product of the two arrays,
  the six blocks cover the [12288,128] output array, and the array ends holding the product.
-/
import proofs.«135987_j23871428231489_1_alg».proof.Proof.Reg0
import proofs.«135987_j23871428231489_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's product at an index -/

/-- The left operand's row is the output's row, -/
theorem lhs_S2048x256_S256x128_S2048x128_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- its column the contraction position; -/
theorem lhs_S2048x256_S256x128_S2048x128_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- the right operand's row is the contraction position, -/
theorem rhs_S2048x256_S256x128_S2048x128_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- its column the output's column. -/
theorem rhs_S2048x256_S256x128_S2048x128_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The body's payload at row `p`, column `q` of its block: the sum over `k` of the left block's entry (p, k) times
    the right block's entry (k, q). Narrowing the operands is the identity on extended reals, a cast to the same shape
    is the identity, and the accumulator is the zero splat. -/
theorem pay0_apply (x0 : Vec Ideal S2048x256 .f32) (x1 : Vec Ideal S256x128 .f32) (p : Fin 2048) (q : Fin 128) :
    k0_pay1 x0 x1 (ix2 p q) = ∑ k : Fin 256, (x0 : S2048x256.Idx → EReal) (ix2 p k) * (x1 : S256x128.Idx → EReal) (ix2 k q) := by
  unfold k0_pay1
  simp only [matmul, shapeCast_self]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p q) ((ValueIdx.contrEquiv1 dot_S2048x256_S256x128_S2048x128_1_0_0_1_n_n 256 rfl rfl).symm k) = ix2 p k := funext fun a => Fin.ext (by
    match a with
    | ⟨0, _⟩ => exact lhs_S2048x256_S256x128_S2048x128_0 _ _
    | ⟨1, _⟩ => exact (lhs_S2048x256_S256x128_S2048x128_1 _ _).trans hk)
  have er : dot_S2048x256_S256x128_S2048x128_1_0_0_1_n_n.rhsIdx (ix2 p q) ((ValueIdx.contrEquiv1 dot_S2048x256_S256x128_S2048x128_1_0_0_1_n_n 256 rfl rfl).symm k) = ix2 k q := funext fun a => Fin.ext (by
    match a with
    | ⟨0, _⟩ => exact (rhs_S2048x256_S256x128_S2048x128_0 _ _).trans hk
    | ⟨1, _⟩ => exact rhs_S2048x256_S256x128_S2048x128_1 _ _)
  rw [el, er]
  rfl

/-! ## The reference's product at an index -/

/-- The left operand's row is the output's row, -/
theorem lhs_S12288x256_S256x128_S12288x128_0 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.lhsIdx i q 0).val = (i 0).val := by
  unfold DotDims.lhsIdx
  rw [dif_neg (show ¬(0 : Fin Cert.ReferenceIdeal.S12288x256.rank) ∈ Cert.ReferenceIdeal.dot_S12288x256_S256x128_S12288x128_1_0_0_1_n_n.lhsBatch by decide), dif_pos (show (0 : Fin Cert.ReferenceIdeal.S12288x256.rank) ∈ Cert.ReferenceIdeal.dot_S12288x256_S256x128_S12288x128_1_0_0_1_n_n.lhsNonContracting by decide)]
  rfl
/-- its column the contraction position; -/
theorem lhs_S12288x256_S256x128_S12288x128_1 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.lhsIdx i q 1).val = (q ⟨0, by decide⟩).val :=
  Cert.ReferenceIdeal.dot_S12288x256_S256x128_S12288x128_1_0_0_1_n_n.lhsIdx_val_of_single rfl i q
/-- the right operand's row is the contraction position, -/
theorem rhs_S12288x256_S256x128_S12288x128_0 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.rhsIdx i q 0).val = (q ⟨0, by decide⟩).val :=
  Cert.ReferenceIdeal.dot_S12288x256_S256x128_S12288x128_1_0_0_1_n_n.rhsIdx_val_of_single rfl i q
/-- its column the output's column. -/
theorem rhs_S12288x256_S256x128_S12288x128_1 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.rhsIdx i q 1).val = (i 1).val := by
  unfold DotDims.rhsIdx
  rw [dif_neg (show ¬(1 : Fin Cert.ReferenceIdeal.S256x128.rank) ∈ Cert.ReferenceIdeal.dot_S12288x256_S256x128_S12288x128_1_0_0_1_n_n.rhsBatch by decide), dif_pos (show (1 : Fin Cert.ReferenceIdeal.S256x128.rank) ∈ Cert.ReferenceIdeal.dot_S12288x256_S256x128_S12288x128_1_0_0_1_n_n.rhsNonContracting by decide)]
  rfl

/-- The reference's product at row `r`, column `q`: the sum over `k` of the left array's entry (r, k) times the right
    array's entry (k, q). -/
theorem ref0_apply (a0 : Cert.ReferenceIdeal.S12288x256.Idx → EReal) (a2 : Cert.ReferenceIdeal.S256x128.Idx → EReal) (r : Fin 12288) (q : Fin 128) :
    (Host.dotGeneral (F := Ideal) (φ₁ := .f32) (φ₂ := .f32) Cert.ReferenceIdeal.dot_S12288x256_S256x128_S12288x128_1_0_0_1_n_n none a0 a2 : Cert.ReferenceIdeal.S12288x128.Idx → EReal) (ix2 r q)
      = ∑ k : Fin 256, a0 (ix2 r k) * a2 (ix2 k q) := by
  simp only [Host.dotGeneral]
  rw [Ideal.dotGeneral_apply, ← Equiv.sum_comp (ValueIdx.contrEquiv1 Cert.ReferenceIdeal.dot_S12288x256_S256x128_S12288x128_1_0_0_1_n_n 256 rfl rfl).symm]
  refine Finset.sum_congr rfl fun k _ => ?_
  have hk := ValueIdx.contrEquiv1_symm_val Cert.ReferenceIdeal.dot_S12288x256_S256x128_S12288x128_1_0_0_1_n_n 256 rfl rfl k
  have el : Cert.ReferenceIdeal.dot_S12288x256_S256x128_S12288x128_1_0_0_1_n_n.lhsIdx (ix2 r q) ((ValueIdx.contrEquiv1 Cert.ReferenceIdeal.dot_S12288x256_S256x128_S12288x128_1_0_0_1_n_n 256 rfl rfl).symm k) = ix2 r k := funext fun a => Fin.ext (by
    match a with
    | ⟨0, _⟩ => exact lhs_S12288x256_S256x128_S12288x128_0 _ _
    | ⟨1, _⟩ => exact (lhs_S12288x256_S256x128_S12288x128_1 _ _).trans hk)
  have er : Cert.ReferenceIdeal.dot_S12288x256_S256x128_S12288x128_1_0_0_1_n_n.rhsIdx (ix2 r q) ((ValueIdx.contrEquiv1 Cert.ReferenceIdeal.dot_S12288x256_S256x128_S12288x128_1_0_0_1_n_n 256 rfl rfl).symm k) = ix2 k q := funext fun a => Fin.ext (by
    match a with
    | ⟨0, _⟩ => exact (rhs_S12288x256_S256x128_S12288x128_0 _ _).trans hk
    | ⟨1, _⟩ => exact rhs_S12288x256_S256x128_S12288x128_1 _ _)
  rw [el, er]

/-- One entry of a block's product is the reference's entry, when the block's row `p` of the left operand is the
    array's row `r` and the right operand is the whole matrix. -/
theorem blk0_2_eq (a0 : S12288x256.Idx → EReal) (a2 : S256x128.Idx → EReal) (x0 : Vec Ideal S2048x256 .f32) (x1 : Vec Ideal S256x128 .f32)
    (p : Fin 2048) (q : Fin 128) (r : Fin 12288)
    (h0 : ∀ k : Fin 256, (x0 : S2048x256.Idx → EReal) (ix2 p k) = a0 (ix2 r k))
    (h1 : ∀ k : Fin 256, (x1 : S256x128.Idx → EReal) (ix2 k q) = a2 (ix2 k q)) :
    k0_pay1 x0 x1 (ix2 p q)
      = (Host.dotGeneral (F := Ideal) (φ₁ := .f32) (φ₂ := .f32) Cert.ReferenceIdeal.dot_S12288x256_S256x128_S12288x128_1_0_0_1_n_n none a0 a2 : Cert.ReferenceIdeal.S12288x128.Idx → EReal) (ix2 r q) := by
  rw [pay0_apply, ref0_apply]
  exact Finset.sum_congr rfl fun k _ => by rw [h0 k, h1 k]

/-! ## The blocks the windows hold -/

/-- The block indices over the grid: point `t` holds row block `t` of the left array and of the output, and block
    (0, 0) of the right array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 6 :=
  (by decide +kernel : ∀ t : Fin grid0.N, _)

/-- Row `p` of the left array's block at point `t` is row 2048·t + p of the array. -/
theorem iblk0_0_apply (c : Dev nD) (t : Fin cfg0.N) (p : Fin 2048) (k : Fin 256) (r : Fin 12288) (hr : r.val = 2048 * t.val + p.val) :
    (iblk0 V c 0 t : Vec Ideal S2048x256 .f32) (ix2 p k) = (V c main_arg0 : S12288x256.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * p.val = r.val; omega
  | ⟨1, _⟩ => show win0_0.index t (1 : Fin 2) * 256 + 1 * k.val = k.val; omega

/-- The right array's block at every point is the whole array. -/
theorem iblk0_1_apply (c : Dev nD) (t : Fin cfg0.N) (k : Fin 256) (q : Fin 128) :
    (iblk0 V c 1 t : Vec Ideal S256x128 .f32) (ix2 k q) = (V c main_arg2 : S256x128.Idx → EReal) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 256 + 1 * k.val = k.val; omega
  | ⟨1, _⟩ => show win0_1.index t (1 : Fin 2) * 128 + 1 * q.val = q.val; omega

/-! ## From the blocks to the array -/

theorem hz0 : (![0, 0] : Fin 2 → Nat) = fun _ => 0 := funext fun a => by fin_cases a <;> rfl

/-- What point `t` writes back is block `t` of the reference's product of the two arrays as the region finds them. -/
theorem flushed0_2_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S12288x256_S256x128_S12288x128_1_0_0_1_n_n none (V c main_arg0) (V c main_arg2)) := by
  obtain ⟨-, -, -, -, e0, e1, ht⟩ := idx_facts0 t
  show (cfg0.win 2).cut (grid0.coords t) ((dat0 V c).after 2 t) = _
  rw [after0_2]
  unfold out0_2
  rw [View.canon_unit_zero hz0]
  simp only [View.ld_unit_zero (S := S2048x256) hz0, View.ld_unit_zero (S := S256x128) hz0]
  funext j
  rw [View.read_apply]
  have hj0 : (j 0).val < 2048 := (j 0).isLt
  have hemb : ((cfg0.win 2).blk t).view.emb j = (ix2 (⟨2048 * t.val + (j 0).val, by omega⟩ : Fin 12288) (⟨(j 1).val, (j 1).isLt⟩ : Fin 128) : S12288x128.Idx) := by
    funext a; apply Fin.ext
    match a with
    | ⟨0, _⟩ => show win0_2.index t (0 : Fin 2) * 2048 + 1 * (j 0).val = 2048 * t.val + (j 0).val; omega
    | ⟨1, _⟩ => show win0_2.index t (1 : Fin 2) * 128 + 1 * (j 1).val = (j 1).val; omega
  rw [hemb]
  obtain ⟨p, q, rfl⟩ : ∃ (p : Fin 2048) (q : Fin 128), j = ix2 p q := ⟨j 0, j 1, eq_ix2 j⟩
  exact blk0_2_eq (V c main_arg0) (V c main_arg2) (iblk0 V c 0 t) (iblk0 V c 1 t) p q _
    (fun k => iblk0_0_apply V c t p k _ rfl) (fun k => iblk0_1_apply V c t k q)

/-- An index of the output array is in point `t`'s block iff each coordinate is in the block's range on its axis. -/
theorem mem_blk0_2 (t : Fin cfg0.N) (i : S12288x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v34).slice (win0_2.rect t)).set ↔ _
  rw [View.set_slice_whole, Rect.mem_set_unit]
  exact Iff.rfl

/-- The six row blocks cover the output array: row `r` is in the block of point r / 2048. -/
theorem covered0_2 (i : S12288x128.Idx) :
    ∃ t : Fin cfg0.N, (cfg0.win 2).flush t = true ∧ i ∈ ((cfg0.win 2).blk t).view.set := by
  have hi0 : (i 0).val < 12288 := (i 0).isLt
  have hi1 : (i 1).val < 128 := (i 1).isLt
  have hN : cfg0.N = 6 := N_0
  obtain ⟨-, -, -, -, e0, e1, -⟩ := idx_facts0 ⟨(i 0).val / 2048, by omega⟩
  refine ⟨⟨(i 0).val / 2048, by omega⟩, flush0_2 _, ?_⟩
  rw [mem_blk0_2]
  intro a
  match a with
  | ⟨0, _⟩ => show win0_2.index _ (0 : Fin 2) * 2048 ≤ (i 0).val ∧ (i 0).val < win0_2.index _ (0 : Fin 2) * 2048 + 2048; rw [e0]; show (i 0).val / 2048 * 2048 ≤ (i 0).val ∧ (i 0).val < (i 0).val / 2048 * 2048 + 2048; omega
  | ⟨1, _⟩ => show win0_2.index _ (1 : Fin 2) * 128 ≤ (i 1).val ∧ (i 1).val < win0_2.index _ (1 : Fin 2) * 128 + 128; rw [e1]; omega

/-- THE ARRAY after the region's six points: the reference's product of the two arrays as the region finds them. -/
theorem arrAt_mm0 (c : Dev nD) :
    (dat0 (F := Ideal) V c).arrAt 2 cfg0.N
      = Host.dotGeneral (F := Ideal) (φ₁ := .f32) (φ₂ := .f32) Cert.ReferenceIdeal.dot_S12288x256_S256x128_S12288x128_1_0_0_1_n_n none (V c main_arg0) (V c main_arg2) :=
  (dat0 V c).arrAt_eq_of_cover 2 _ (fun t _ => flushed0_2_eq V c t) covered0_2

end Cert.KernelIdeal.Hand

end
-- ==== Proof.RForms.lean ====
/-
  The reference network's layer, written once per feature width as functions of arbitrary arrays: the neighbourhood
  sum over the edges, the affine combination with the self-loop term and the bias, and the rectified combination;
  and the structure decoder's Gram matrix. Both programs' arrays are shown equal to these forms, stage by stage.
  The forms are spelt with the reference program's shapes and dimension records.
-/
import proofs.«135987_j23871428231489_1_alg».proof.ReferenceIdeal

noncomputable section

namespace Cert.ReferenceIdeal.Forms

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The neighbourhood sum of one layer at feature width 128: every edge carries its source node's row of `h`, scaled by the
    edge's normalisation `nrm`, into its destination node's row (a source index below zero is counted from the end). -/
def agg128 (h : (⟨S12288x128, .f32⟩ : BufTy).Contents (Elt F)) (src dst : (⟨S393216, .i32⟩ : BufTy).Contents (Elt F))
    (nrm : (⟨S393216, .f32⟩ : BufTy).Contents (Elt F)) : (⟨S12288x128, .f32⟩ : BufTy).Contents (Elt F) :=
  Host.scatterAdd scatter_S12288x128_S393216x1_S393216x128_1_0_0_1
    (broadcastInDim S12288x128 ![] bcast_S_S12288x128 (constant S_ .f32 0x00000000#32))
    (broadcastInDim S393216x1 ![0] bcast_S393216_S393216x1_0 dst)
    (mulf (Host.gather gather_S12288x128_S393216x1_S393216x128_1_0_n_n_0_1_1128 h
        (broadcastInDim S393216x1 ![0] bcast_S393216_S393216x1_0
          (select (cmpi .slt src (broadcastInDim S393216 ![] bcast_S_S393216 (constantI S_ 32 0#32)))
            (addi src (broadcastInDim S393216 ![] bcast_S_S393216 (constantI S_ 32 12288#32))) src)))
      (broadcastInDim S393216x128 ![0, 1] bcast_S393216x1_S393216x128_0_1 (broadcastInDim S393216x1 ![0] bcast_S393216_S393216x1_0 nrm)))

/-- The neighbourhood sum of one layer at feature width 64: every edge carries its source node's row of `h`, scaled by the
    edge's normalisation `nrm`, into its destination node's row (a source index below zero is counted from the end). -/
def agg64 (h : (⟨S12288x64, .f32⟩ : BufTy).Contents (Elt F)) (src dst : (⟨S393216, .i32⟩ : BufTy).Contents (Elt F))
    (nrm : (⟨S393216, .f32⟩ : BufTy).Contents (Elt F)) : (⟨S12288x64, .f32⟩ : BufTy).Contents (Elt F) :=
  Host.scatterAdd scatter_S12288x64_S393216x1_S393216x64_1_0_0_1
    (broadcastInDim S12288x64 ![] bcast_S_S12288x64 (constant S_ .f32 0x00000000#32))
    (broadcastInDim S393216x1 ![0] bcast_S393216_S393216x1_0 dst)
    (mulf (Host.gather gather_S12288x64_S393216x1_S393216x64_1_0_n_n_0_1_164 h
        (broadcastInDim S393216x1 ![0] bcast_S393216_S393216x1_0
          (select (cmpi .slt src (broadcastInDim S393216 ![] bcast_S_S393216 (constantI S_ 32 0#32)))
            (addi src (broadcastInDim S393216 ![] bcast_S_S393216 (constantI S_ 32 12288#32))) src)))
      (broadcastInDim S393216x64 ![0, 1] bcast_S393216x1_S393216x64_0_1 (broadcastInDim S393216x1 ![0] bcast_S393216_S393216x1_0 nrm)))

/-- The neighbourhood sum of one layer at feature width 256: every edge carries its source node's row of `h`, scaled by the
    edge's normalisation `nrm`, into its destination node's row (a source index below zero is counted from the end). -/
def agg256 (h : (⟨S12288x256, .f32⟩ : BufTy).Contents (Elt F)) (src dst : (⟨S393216, .i32⟩ : BufTy).Contents (Elt F))
    (nrm : (⟨S393216, .f32⟩ : BufTy).Contents (Elt F)) : (⟨S12288x256, .f32⟩ : BufTy).Contents (Elt F) :=
  Host.scatterAdd scatter_S12288x256_S393216x1_S393216x256_1_0_0_1
    (broadcastInDim S12288x256 ![] bcast_S_S12288x256 (constant S_ .f32 0x00000000#32))
    (broadcastInDim S393216x1 ![0] bcast_S393216_S393216x1_0 dst)
    (mulf (Host.gather gather_S12288x256_S393216x1_S393216x256_1_0_n_n_0_1_1256 h
        (broadcastInDim S393216x1 ![0] bcast_S393216_S393216x1_0
          (select (cmpi .slt src (broadcastInDim S393216 ![] bcast_S_S393216 (constantI S_ 32 0#32)))
            (addi src (broadcastInDim S393216 ![] bcast_S_S393216 (constantI S_ 32 12288#32))) src)))
      (broadcastInDim S393216x256 ![0, 1] bcast_S393216x1_S393216x256_0_1 (broadcastInDim S393216x1 ![0] bcast_S393216_S393216x1_0 nrm)))

/-- One layer's affine combination at feature width 128, before any rectifier: the neighbourhood sum, plus the node's own
    row of `h` times its inverse degree (a column `d`), plus the bias row `b`. -/
def lin128 (agg h : (⟨S12288x128, .f32⟩ : BufTy).Contents (Elt F)) (d : (⟨S12288x1, .f32⟩ : BufTy).Contents (Elt F))
    (b : (⟨S128, .f32⟩ : BufTy).Contents (Elt F)) : (⟨S12288x128, .f32⟩ : BufTy).Contents (Elt F) :=
  addf (addf agg (mulf h (broadcastInDim S12288x128 ![0, 1] bcast_S12288x1_S12288x128_0_1 d)))
    (broadcastInDim S12288x128 ![0, 1] bcast_S1x128_S12288x128_0_1 (broadcastInDim S1x128 ![1] bcast_S128_S1x128_1 b))

/-- One layer's affine combination at feature width 64, before any rectifier: the neighbourhood sum, plus the node's own
    row of `h` times its inverse degree (a column `d`), plus the bias row `b`. -/
def lin64 (agg h : (⟨S12288x64, .f32⟩ : BufTy).Contents (Elt F)) (d : (⟨S12288x1, .f32⟩ : BufTy).Contents (Elt F))
    (b : (⟨S64, .f32⟩ : BufTy).Contents (Elt F)) : (⟨S12288x64, .f32⟩ : BufTy).Contents (Elt F) :=
  addf (addf agg (mulf h (broadcastInDim S12288x64 ![0, 1] bcast_S12288x1_S12288x64_0_1 d)))
    (broadcastInDim S12288x64 ![0, 1] bcast_S1x64_S12288x64_0_1 (broadcastInDim S1x64 ![1] bcast_S64_S1x64_1 b))

/-- One layer's affine combination at feature width 256, before any rectifier: the neighbourhood sum, plus the node's own
    row of `h` times its inverse degree (a column `d`), plus the bias row `b`. -/
def lin256 (agg h : (⟨S12288x256, .f32⟩ : BufTy).Contents (Elt F)) (d : (⟨S12288x1, .f32⟩ : BufTy).Contents (Elt F))
    (b : (⟨S256, .f32⟩ : BufTy).Contents (Elt F)) : (⟨S12288x256, .f32⟩ : BufTy).Contents (Elt F) :=
  addf (addf agg (mulf h (broadcastInDim S12288x256 ![0, 1] bcast_S12288x1_S12288x256_0_1 d)))
    (broadcastInDim S12288x256 ![0, 1] bcast_S1x256_S12288x256_0_1 (broadcastInDim S1x256 ![1] bcast_S256_S1x256_1 b))

/-- The same followed by the rectifier max(·, 0). -/
def cmb128 (agg h : (⟨S12288x128, .f32⟩ : BufTy).Contents (Elt F)) (d : (⟨S12288x1, .f32⟩ : BufTy).Contents (Elt F))
    (b : (⟨S128, .f32⟩ : BufTy).Contents (Elt F)) : (⟨S12288x128, .f32⟩ : BufTy).Contents (Elt F) :=
  maximumf (lin128 agg h d b) (broadcastInDim S12288x128 ![] bcast_S_S12288x128 (constant S_ .f32 0x00000000#32))

/-- The same followed by the rectifier max(·, 0). -/
def cmb64 (agg h : (⟨S12288x64, .f32⟩ : BufTy).Contents (Elt F)) (d : (⟨S12288x1, .f32⟩ : BufTy).Contents (Elt F))
    (b : (⟨S64, .f32⟩ : BufTy).Contents (Elt F)) : (⟨S12288x64, .f32⟩ : BufTy).Contents (Elt F) :=
  maximumf (lin64 agg h d b) (broadcastInDim S12288x64 ![] bcast_S_S12288x64 (constant S_ .f32 0x00000000#32))

/-- The inverse-degree vector as a column. -/
def col (v : (⟨S12288, .f32⟩ : BufTy).Contents (Elt F)) : (⟨S12288x1, .f32⟩ : BufTy).Contents (Elt F) :=
  broadcastInDim S12288x1 ![0] bcast_S12288_S12288x1_0 v

/-- The structure decoder: the Gram matrix s · sᵀ of the embedding rows. -/
def gram (s : (⟨S12288x64, .f32⟩ : BufTy).Contents (Elt F)) : (⟨S12288x12288, .f32⟩ : BufTy).Contents (Elt F) :=
  Host.dotGeneral dot_S12288x64_S64x12288_S12288x12288_1_0_0_1_n_n none s (transpose S64x12288 [1, 0] s transposes_S12288x64_S64x12288_1_0)

end Cert.ReferenceIdeal.Forms

end
-- ==== Proof.ValCB1.lean ====
/-
  The value of the combine region of the first layer at the extended reals. After its six grid points the region's output
  array [12288,128] is, as one function of the four arrays the region finds (the aggregate, h, the inverse-degree column
  and the bias), the rectified affine combination max(agg + h · d + bias, 0), spelt with the reference program's
  operations. Three steps: the body's arithmetic and the reference's form read at an index (r, q) are the same
  expression of the arrays' entries at row r; each input block at point t is rows 2048 t … 2048 t + 2047 of its array,
  so what point t writes back is block t of the form; the six row blocks tile the output array.
-/
import proofs.«135987_j23871428231489_1_alg».proof.Proof.Reg1
import proofs.«135987_j23871428231489_1_alg».proof.Proof.RForms
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat Cfg Window)
open Cert.KernelIdeal Cert.KernelIdeal.Gen

/-! ## The affine part, index by index -/

/-- The affine part of the body's arithmetic on its four loaded blocks: the aggregate, plus h scaled row by row by the
    column, plus the bias along the rows. -/
abbrev lin1 (x0 x1 : Vec Ideal S2048x128 .f32) (x2 : Vec Ideal S2048x1 .f32) (x3 : Vec Ideal S128 .f32) : FVec Ideal S2048x128 .f32 :=
  addf (addf (shapeCast S2048x128 x0 shapeCasts_S2048x128_S2048x128)
      (mulf (shapeCast S2048x128 x1 shapeCasts_S2048x128_S2048x128)
        (broadcastTo S2048x128 (shapeCast S2048x1 x2 shapeCasts_S2048x1_S2048x1) broadcasts_S2048x1_S2048x128)))
    (broadcastTo S2048x128 (shapeCast S1x128 x3 shapeCasts_S128_S1x128) broadcasts_S1x128_S2048x128)

/-- A column [2048,1] broadcast along the rows reads, at (p, q), the column at (p, 0). -/
theorem bcol1_apply (v : S2048x1.Idx → EReal) (p : Fin 2048) (q : Fin 128) :
    broadcastTo S2048x128 v broadcasts_S2048x1_S2048x128 (ix2 p q) = v (ix2 p (0 : Fin 1)) := by
  refine broadcastTo_apply v broadcasts_S2048x1_S2048x128 (ix2 p q) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else q.val; rw [if_pos rfl]

/-- The body's affine part at (p, q): x0(p,q) + x1(p,q) · x2(p,0) + x3(q). -/
theorem lin1_apply (x0 x1 : Vec Ideal S2048x128 .f32) (x2 : Vec Ideal S2048x1 .f32) (x3 : Vec Ideal S128 .f32) (p : Fin 2048) (q : Fin 128) :
    lin1 x0 x1 x2 x3 (ix2 p q) = x0 (ix2 p q) + x1 (ix2 p q) * x2 (ix2 p (0 : Fin 1)) + x3 (ix1 q) := by
  show (shapeCast S2048x128 x0 shapeCasts_S2048x128_S2048x128 (ix2 p q)
      + shapeCast S2048x128 x1 shapeCasts_S2048x128_S2048x128 (ix2 p q)
        * broadcastTo S2048x128 (shapeCast S2048x1 x2 shapeCasts_S2048x1_S2048x1) broadcasts_S2048x1_S2048x128 (ix2 p q))
      + broadcastTo S2048x128 (shapeCast S1x128 x3 shapeCasts_S128_S1x128) broadcasts_S1x128_S2048x128 (ix2 p q) = _
  rw [shapeCast_self, shapeCast_self, shapeCast_self, bcol1_apply, broadcastTo_1b_ab_apply, shapeCast_a_1a_apply]

/-- The reference's affine combination at (r, q): a0(r,q) + a1(r,q) · a2(r,0) + a3(q). -/
theorem ref_lin1_apply [Cert.ReferenceIdeal.Facts] (a0 a1 : (⟨Cert.ReferenceIdeal.S12288x128, .f32⟩ : BufTy).Contents (Elt Ideal))
    (a2 : (⟨Cert.ReferenceIdeal.S12288x1, .f32⟩ : BufTy).Contents (Elt Ideal)) (a3 : (⟨Cert.ReferenceIdeal.S128, .f32⟩ : BufTy).Contents (Elt Ideal))
    (r : Fin 12288) (q : Fin 128) :
    Cert.ReferenceIdeal.Forms.lin128 (F := Ideal) a0 a1 a2 a3 (ix2 r q)
      = a0 (ix2 r q) + a1 (ix2 r q) * a2 (ix2 r (0 : Fin 1)) + a3 (ix1 q) := by
  show (a0 (ix2 r q) + a1 (ix2 r q)
        * broadcastInDim Cert.ReferenceIdeal.S12288x128 ![0, 1] Cert.ReferenceIdeal.Facts₀.bcast_S12288x1_S12288x128_0_1 a2 (ix2 r q))
      + broadcastInDim Cert.ReferenceIdeal.S12288x128 ![0, 1] Cert.ReferenceIdeal.Facts₀.bcast_S1x128_S12288x128_0_1
          (broadcastInDim Cert.ReferenceIdeal.S1x128 ![1] Cert.ReferenceIdeal.Facts₀.bcast_S128_S1x128_1 a3) (ix2 r q) = _
  rw [broadcastInDim_apply _ Cert.ReferenceIdeal.Facts₀.bcast_S12288x1_S12288x128_0_1 a2 (ix2 r q) (ix2 r (0 : Fin 1)) (fun a => match a with
      | ⟨0, _⟩ => by show r.val = if (12288 : Nat) = 1 then 0 else r.val; rw [if_neg (by decide)]
      | ⟨1, _⟩ => by show 0 = if (1 : Nat) = 1 then 0 else q.val; rw [if_pos rfl]),
    broadcastInDim_apply _ Cert.ReferenceIdeal.Facts₀.bcast_S1x128_S12288x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ Cert.ReferenceIdeal.Facts₀.bcast_S128_S1x128_1 a3 (ix2 (0 : Fin 1) q) (ix1 q) (fun a => match a with
      | ⟨0, _⟩ => by show q.val = if (128 : Nat) = 1 then 0 else q.val; rw [if_neg (by decide)])]

/-- The two affine parts agree: the body's at (p, q) of blocks that read the arrays at row r is the reference's at (r, q). -/
theorem lin_point1 [Cert.ReferenceIdeal.Facts] (a0 a1 : (⟨Cert.ReferenceIdeal.S12288x128, .f32⟩ : BufTy).Contents (Elt Ideal))
    (a2 : (⟨Cert.ReferenceIdeal.S12288x1, .f32⟩ : BufTy).Contents (Elt Ideal)) (a3 : (⟨Cert.ReferenceIdeal.S128, .f32⟩ : BufTy).Contents (Elt Ideal))
    (x0 x1 : Vec Ideal S2048x128 .f32) (x2 : Vec Ideal S2048x1 .f32) (x3 : Vec Ideal S128 .f32)
    (p : Fin 2048) (q : Fin 128) (r : Fin 12288)
    (h0 : x0 (ix2 p q) = a0 (ix2 r q)) (h1 : x1 (ix2 p q) = a1 (ix2 r q))
    (h2 : x2 (ix2 p (0 : Fin 1)) = a2 (ix2 r (0 : Fin 1))) (h3 : x3 (ix1 q) = a3 (ix1 q)) :
    lin1 x0 x1 x2 x3 (ix2 p q) = Cert.ReferenceIdeal.Forms.lin128 (F := Ideal) a0 a1 a2 a3 (ix2 r q) := by
  rw [lin1_apply, ref_lin1_apply, h0, h1, h2, h3]

/-! ## The rectifier step: the only place the final maximum enters -/

/-- The payload of the body is its affine part clamped below by the value of the zero word. -/
theorem pay1_eq (x0 x1 : Vec Ideal S2048x128 .f32) (x2 : Vec Ideal S2048x1 .f32) (x3 : Vec Ideal S128 .f32) :
    k1_pay1 (F := Ideal) x0 x1 x2 x3 = maximumf (lin1 x0 x1 x2 x3) (broadcast S2048x128 (Scalar.ofBits (F := Ideal) .f32 0x00000000#32)) := rfl

/-- The rectified affine combination of the reference at an index is the larger of its affine combination there and
    the value of the zero word. -/
theorem ref_cmb1_apply [Cert.ReferenceIdeal.Facts] (a0 a1 : (⟨Cert.ReferenceIdeal.S12288x128, .f32⟩ : BufTy).Contents (Elt Ideal))
    (a2 : (⟨Cert.ReferenceIdeal.S12288x1, .f32⟩ : BufTy).Contents (Elt Ideal)) (a3 : (⟨Cert.ReferenceIdeal.S128, .f32⟩ : BufTy).Contents (Elt Ideal))
    (i : Cert.ReferenceIdeal.S12288x128.Idx) :
    Cert.ReferenceIdeal.Forms.cmb128 (F := Ideal) a0 a1 a2 a3 i
      = max (Cert.ReferenceIdeal.Forms.lin128 (F := Ideal) a0 a1 a2 a3 i) (Ideal.ofBits .f32 0x00000000#32) := by
  show max (Cert.ReferenceIdeal.Forms.lin128 (F := Ideal) a0 a1 a2 a3 i)
      (broadcastInDim Cert.ReferenceIdeal.S12288x128 ![] Cert.ReferenceIdeal.Facts₀.bcast_S_S12288x128 (constant (F := Ideal) Cert.ReferenceIdeal.S_ .f32 0x00000000#32) i) = _
  rw [broadcastInDim_apply _ Cert.ReferenceIdeal.Facts₀.bcast_S_S12288x128 _ i (fun a => a.elim0) (fun a => a.elim0)]
  rfl

/-- The payload at (p, q) of blocks that read the arrays at row r is the rectified affine combination of the reference at (r, q). -/
theorem point1 [Cert.ReferenceIdeal.Facts] (a0 a1 : (⟨Cert.ReferenceIdeal.S12288x128, .f32⟩ : BufTy).Contents (Elt Ideal))
    (a2 : (⟨Cert.ReferenceIdeal.S12288x1, .f32⟩ : BufTy).Contents (Elt Ideal)) (a3 : (⟨Cert.ReferenceIdeal.S128, .f32⟩ : BufTy).Contents (Elt Ideal))
    (x0 x1 : Vec Ideal S2048x128 .f32) (x2 : Vec Ideal S2048x1 .f32) (x3 : Vec Ideal S128 .f32)
    (p : Fin 2048) (q : Fin 128) (r : Fin 12288)
    (h0 : x0 (ix2 p q) = a0 (ix2 r q)) (h1 : x1 (ix2 p q) = a1 (ix2 r q))
    (h2 : x2 (ix2 p (0 : Fin 1)) = a2 (ix2 r (0 : Fin 1))) (h3 : x3 (ix1 q) = a3 (ix1 q)) :
    k1_pay1 (F := Ideal) x0 x1 x2 x3 (ix2 p q) = Cert.ReferenceIdeal.Forms.cmb128 (F := Ideal) a0 a1 a2 a3 (ix2 r q) := by
  rw [pay1_eq, ref_cmb1_apply, ← lin_point1 a0 a1 a2 a3 x0 x1 x2 x3 p q r h0 h1 h2 h3]; rfl

/-! ## From blocks to the array -/

section Blocks
variable [Cert.ReferenceIdeal.Facts] (V : (c : Dev nD) → (b : Ref sig .tc) → Buf (Elt Ideal) ((c : Thread nD τ).loc b))

/-- Zero offsets on two axes and on one. -/
theorem hz1_2 : (![0, 0] : Fin 2 → Nat) = fun _ => 0 := funext fun a => by fin_cases a <;> rfl
theorem hz1_1 : (![0] : Fin 1 → Nat) = fun _ => 0 := funext fun a => by fin_cases a <;> rfl

/-- The printed index maps over the six points: the three row-blocked inputs and the output sit at block (t, 0), the
    bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The aggregate's block at point t is rows 2048 t … 2048 t + 2047 of its array. -/
theorem iblk1_0_apply (c : Dev nD) (t : Fin cfg1.N) (p : Fin 2048) (q : Fin 128) (r : Fin 12288) (hr : r.val = 2048 * t.val + p.val) :
    (iblk1 V c 0 t : Vec Ideal S2048x128 .f32) (ix2 p q) = (V c main_v47 : S12288x128.Idx → EReal) (ix2 r q) := by
  obtain ⟨e0, e1, -⟩ := idx_facts1 t
  unfold iblk1
  rw [View.read_apply]
  show V c main_v47 _ = V c main_v47 _
  congr 1
  funext a; apply Fin.ext
  match a with
  | ⟨0, _⟩ => show win1_0.index t (0 : Fin 2) * 2048 + 1 * p.val = r.val; rw [e0, hr]; omega
  | ⟨1, _⟩ => show win1_0.index t (1 : Fin 2) * 128 + 1 * q.val = q.val; rw [e1]; omega

/-- The block of h at point t is the same rows of its array. -/
theorem iblk1_1_apply (c : Dev nD) (t : Fin cfg1.N) (p : Fin 2048) (q : Fin 128) (r : Fin 12288) (hr : r.val = 2048 * t.val + p.val) :
    (iblk1 V c 1 t : Vec Ideal S2048x128 .f32) (ix2 p q) = (V c main_v34 : S12288x128.Idx → EReal) (ix2 r q) := by
  obtain ⟨-, -, e0, e1, -⟩ := idx_facts1 t
  unfold iblk1
  rw [View.read_apply]
  show V c main_v34 _ = V c main_v34 _
  congr 1
  funext a; apply Fin.ext
  match a with
  | ⟨0, _⟩ => show win1_1.index t (0 : Fin 2) * 2048 + 1 * p.val = r.val; rw [e0, hr]; omega
  | ⟨1, _⟩ => show win1_1.index t (1 : Fin 2) * 128 + 1 * q.val = q.val; rw [e1]; omega

/-- The inverse-degree column's block at point t is the same rows of the column. -/
theorem iblk1_2_apply (c : Dev nD) (t : Fin cfg1.N) (p : Fin 2048) (r : Fin 12288) (hr : r.val = 2048 * t.val + p.val) :
    (iblk1 V c 2 t : Vec Ideal S2048x1 .f32) (ix2 p (0 : Fin 1)) = (V c main_v33 : S12288x1.Idx → EReal) (ix2 r (0 : Fin 1)) := by
  obtain ⟨-, -, -, -, e0, e1, -⟩ := idx_facts1 t
  unfold iblk1
  rw [View.read_apply]
  show V c main_v33 _ = V c main_v33 _
  congr 1
  funext a; apply Fin.ext
  match a with
  | ⟨0, _⟩ => show win1_2.index t (0 : Fin 2) * 2048 + 1 * p.val = r.val; rw [e0, hr]; omega
  | ⟨1, _⟩ => show win1_2.index t (1 : Fin 2) * 1 + 1 * 0 = 0; rw [e1]

/-- The bias window's one block is the bias vector. -/
theorem iblk1_3_apply (c : Dev nD) (t : Fin cfg1.N) (q : Fin 128) :
    (iblk1 V c 3 t : Vec Ideal S128 .f32) (ix1 q) = (V c main_arg3 : S128.Idx → EReal) (ix1 q) := by
  obtain ⟨-, -, -, -, -, -, e0, -⟩ := idx_facts1 t
  unfold iblk1
  rw [View.read_apply]
  show V c main_arg3 _ = V c main_arg3 _
  congr 1
  funext a; apply Fin.ext
  match a with
  | ⟨0, _⟩ => show win1_3.index t (0 : Fin 1) * 128 + 1 * q.val = q.val; rw [e0]; omega

/-- What point t writes back is block t of the rectified affine combination of the four arrays as the region finds them. -/
theorem flushed1_4_eq (c : Dev nD) (t : Fin cfg1.N) :
    (dat1 (F := Ideal) V c).flushed 4 t = ((cfg1.win 4).blk t).view.read (Elt Ideal)
      (Cert.ReferenceIdeal.Forms.cmb128 (F := Ideal) (V c main_v47) (V c main_v34) (V c main_v33) (V c main_arg3)) := by
  show (cfg1.win 4).cut (grid1.coords t) ((dat1 V c).after 4 t) = _
  rw [after1_4]
  unfold out1_4
  rw [View.canon_unit_zero hz1_2]
  simp only [View.ld_unit_zero (S := S2048x128) hz1_2, View.ld_unit_zero (S := S2048x1) hz1_2, View.ld_unit_zero (S := S128) hz1_1]
  funext j
  obtain ⟨p, q, rfl⟩ : ∃ (p : Fin 2048) (q : Fin 128), j = ix2 p q := ⟨j 0, j 1, eq_ix2 j⟩
  have hp := p.isLt
  have ht : t.val < 6 := by have := t.isLt; have hN : cfg1.N = 6 := N_1; omega
  obtain ⟨-, -, -, -, -, -, -, e0, e1⟩ := idx_facts1 t
  have hemb : ((cfg1.win 4).blk t).view.emb (ix2 p q) = ix2 (⟨2048 * t.val + p.val, by omega⟩ : Fin 12288) q := by
    funext a; apply Fin.ext
    match a with
    | ⟨0, _⟩ => show win1_4.index t (0 : Fin 2) * 2048 + 1 * p.val = 2048 * t.val + p.val; rw [e0]; omega
    | ⟨1, _⟩ => show win1_4.index t (1 : Fin 2) * 128 + 1 * q.val = q.val; rw [e1]; omega
  rw [View.read_apply, hemb]
  exact point1 _ _ _ _ _ _ _ _ p q _ (iblk1_0_apply V c t p q _ rfl) (iblk1_1_apply V c t p q _ rfl)
    (iblk1_2_apply V c t p _ rfl) (iblk1_3_apply V c t q)

/-- An index of the output array is in point t's block iff each coordinate is in the block's range on its axis. -/
theorem mem_blk1_4 (t : Fin cfg1.N) (i : S12288x128.Idx) :
    i ∈ ((cfg1.win 4).blk t).view.set ↔ ∀ a : Fin 2, win1_4.index t a * S2048x128.size a ≤ (i a).val ∧ (i a).val < win1_4.index t a * S2048x128.size a + S2048x128.size a := by
  show i ∈ ((View.whole main_v48).slice (win1_4.rect t)).set ↔ _
  rw [View.set_slice_whole, Rect.mem_set_unit]
  exact Iff.rfl

/-- The six row blocks tile the output array: row r lies in the block of point r / 2048. -/
theorem tiles1_4 (i : S12288x128.Idx) : ∃ t : Fin cfg1.N, (cfg1.win 4).flush t = true ∧ i ∈ ((cfg1.win 4).blk t).view.set := by
  have hi0 : (i 0).val < 12288 := (i 0).isLt
  have hi1 : (i 1).val < 128 := (i 1).isLt
  have hN : cfg1.N = 6 := N_1
  obtain ⟨t, ht⟩ : ∃ t : Fin cfg1.N, t.val = (i 0).val / 2048 := ⟨⟨(i 0).val / 2048, by rw [hN]; omega⟩, rfl⟩
  obtain ⟨-, -, -, -, -, -, -, e0, e1⟩ := idx_facts1 t
  refine ⟨t, flush1_4 t, ?_⟩
  rw [mem_blk1_4]
  intro a
  match a with
  | ⟨0, _⟩ => show win1_4.index t (0 : Fin 2) * 2048 ≤ (i 0).val ∧ (i 0).val < win1_4.index t (0 : Fin 2) * 2048 + 2048; rw [e0, ht]; omega
  | ⟨1, _⟩ => show win1_4.index t (1 : Fin 2) * 128 ≤ (i 1).val ∧ (i 1).val < win1_4.index t (1 : Fin 2) * 128 + 128; rw [e1]; omega

/-- The region's output array after its six points is the rectified affine combination of the four input arrays. -/
theorem arrAt_cb1 (c : Dev nD) : (dat1 (F := Ideal) V c).arrAt 4 cfg1.N
    = Cert.ReferenceIdeal.Forms.cmb128 (F := Ideal) (V c main_v47) (V c main_v34) (V c main_v33) (V c main_arg3) :=
  (dat1 V c).arrAt_eq_of_cover 4 _ (fun t _ => flushed1_4_eq V c t) tiles1_4

end Blocks

end Cert.KernelIdeal.Hand

end
-- ==== Proof.ValSST.lean ====
/-
  The structure decoder's region of @main at the ideal instance, where floats are extended reals: after its 12 × 12
  grid points the output array f32[12288,12288] is the Gram matrix s · sᵀ of the one input array s f32[12288,64],
  in the reference's spelling (the dot_general of s with its transpose).

  Both input windows read the SAME array s in blocks of 1024 rows: at the point with row coordinate i and column
  coordinate j the left window holds rows 1024·i … of s and the right window rows 1024·j …; the body stores the
  product of the left block with the transpose of the right block into the output's block (i, j). Entry (p, q)
  of that product is Σ_k s[1024·i + p, k] · s[1024·j + q, k], which is entry (1024·i + p, 1024·j + q) of s · sᵀ:
  narrowing the operands' format is the identity on extended reals, and the accumulator is the zero splat. The
  144 output blocks tile the array: entry (r, r') lies in the block of the point 12 · (r / 1024) + r' / 1024.
-/
import proofs.«135987_j23871428231489_1_alg».proof.Proof.Reg10
import proofs.«135987_j23871428231489_1_alg».proof.Proof.RForms
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The body's product at an index -/

theorem lhs_sst_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_sst_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_sst_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_sst_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The transposed right block at (k, q) is the block at (q, k). -/
theorem tr_sst_apply (y : S1024x64.Idx → EReal) (k : Fin 64) (q : Fin 1024) :
    (transpose S64x1024 [1, 0] y transposes_S1024x64_p1_0_S64x1024 : S64x1024.Idx → EReal) (ix2 k q) = y (ix2 q k) :=
  transpose_apply [1, 0] y transposes_S1024x64_p1_0_S64x1024 (ix2 k q) (ix2 q k) (fun b => match b with
    | ⟨0, _⟩ => rfl
    | ⟨1, _⟩ => rfl)

/-- The body's payload at row `p`, column `q` of its block: the sum over `k` of the row block's entry (p, k) times
    the column block's entry (q, k). The narrowing of the operands is the identity on extended reals, the
    shape casts are between equal shapes, the transpose swaps the two coordinates, and the accumulator is the
    zero splat. -/
theorem pay_sst_apply (x0 x1 : Vec Ideal S1024x64 .f32) (p q : Fin 1024) :
    k10_pay1 x0 x1 (ix2 p q) = ∑ k : Fin 64, (x0 : S1024x64.Idx → EReal) (ix2 p k) * (x1 : S1024x64.Idx → EReal) (ix2 q k) := by
  unfold k10_pay1
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k := funext fun a => Fin.ext (by
    match a with
    | ⟨0, _⟩ => exact lhs_sst_0 _ _
    | ⟨1, _⟩ => exact (lhs_sst_1 _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q := funext fun a => Fin.ext (by
    match a with
    | ⟨0, _⟩ => exact (rhs_sst_0 _ _).trans hk
    | ⟨1, _⟩ => exact rhs_sst_1 _ _)
  rw [el, er, truncf_apply, shapeCast_self]
  refine congrArg (_ * ·) ?_
  rw [tr_sst_apply, truncf_apply, shapeCast_self]

/-! ## The blocks the windows hold, and the output's blocks -/

section Blocks

variable (V : (c : Dev nD) → (b : Ref sig .tc) → Buf (Elt Ideal) ((c : Thread nD τ).loc b))

/-- The grid runs row-major, the column coordinate fastest: at point `t` the row coordinate is `t / 12` and the
    column coordinate `t % 12`. The left window's block index is (row, 0), the right window's (column, 0) and the
    output's (row, column). -/
theorem idx_facts_sst : ∀ t : Fin cfg10.N,
    win10_0.index t (0 : Fin 2) = t.val / 12 ∧ win10_0.index t (1 : Fin 2) = 0
    ∧ win10_1.index t (0 : Fin 2) = t.val % 12 ∧ win10_1.index t (1 : Fin 2) = 0
    ∧ win10_2.index t (0 : Fin 2) = t.val / 12 ∧ win10_2.index t (1 : Fin 2) = t.val % 12 ∧ t.val < 144 :=
  (by decide +kernel : ∀ t : Fin grid10.N, _)

/-- The left window's block at point `t` is rows `1024 * (t / 12) ..` of the embedding. -/
theorem iblk_sst_0_apply (c : Dev nD) (t : Fin cfg10.N) (p : Fin 1024) (k : Fin 64) (r : Fin 12288) (hr : r.val = 1024 * (t.val / 12) + p.val) :
    (iblk10 V c 0 t : Vec Ideal S1024x64 .f32) (ix2 p k) = (V c main_v108 : S12288x64.Idx → EReal) (ix2 r k) := by
  obtain ⟨e0, e1, -⟩ := idx_facts_sst t
  unfold iblk10
  rw [View.read_apply]
  show V c main_v108 (((cfg10.win 0).blk t).view.emb (ix2 p k)) = V c main_v108 (ix2 r k)
  refine congrArg (V c main_v108) (funext fun a => Fin.ext ?_)
  match a with
  | ⟨0, _⟩ => show win10_0.index t (0 : Fin 2) * 1024 + 1 * p.val = r.val; omega
  | ⟨1, _⟩ => show win10_0.index t (1 : Fin 2) * 64 + 1 * k.val = k.val; omega

/-- The right window's block at point `t` is rows `1024 * (t % 12) ..` of the same embedding. -/
theorem iblk_sst_1_apply (c : Dev nD) (t : Fin cfg10.N) (q : Fin 1024) (k : Fin 64) (r : Fin 12288) (hr : r.val = 1024 * (t.val % 12) + q.val) :
    (iblk10 V c 1 t : Vec Ideal S1024x64 .f32) (ix2 q k) = (V c main_v108 : S12288x64.Idx → EReal) (ix2 r k) := by
  obtain ⟨-, -, e0, e1, -⟩ := idx_facts_sst t
  unfold iblk10
  rw [View.read_apply]
  show V c main_v108 (((cfg10.win 1).blk t).view.emb (ix2 q k)) = V c main_v108 (ix2 r k)
  refine congrArg (V c main_v108) (funext fun a => Fin.ext ?_)
  match a with
  | ⟨0, _⟩ => show win10_1.index t (0 : Fin 2) * 1024 + 1 * q.val = r.val; omega
  | ⟨1, _⟩ => show win10_1.index t (1 : Fin 2) * 64 + 1 * k.val = k.val; omega

theorem hz_sst : (![0, 0] : Fin 2 → Nat) = fun _ => 0 := funext fun a => by fin_cases a <;> rfl

/-- An index of the output array is in point `t`'s block iff each coordinate is in the block's range on its axis. -/
theorem mem_blk_sst (t : Fin cfg10.N) (i : S12288x12288.Idx) :
    i ∈ ((cfg10.win 2).blk t).view.set ↔ ∀ a : Fin 2, win10_2.index t a * S1024x1024.size a ≤ (i a).val ∧ (i a).val < win10_2.index t a * S1024x1024.size a + S1024x1024.size a := by
  show i ∈ ((View.whole main_v109).slice (win10_2.rect t)).set ↔ _
  rw [View.set_slice_whole, Rect.mem_set_unit]
  exact Iff.rfl

/-- Every entry (r, r') of the output is in the block of the point with row coordinate `r / 1024` and column
    coordinate `r' / 1024`, the point `12 * (r / 1024) + r' / 1024` in the grid's order. -/
theorem covered_sst (i : S12288x12288.Idx) :
    ∃ t : Fin cfg10.N, (cfg10.win 2).flush t = true ∧ i ∈ ((cfg10.win 2).blk t).view.set := by
  have hi0 : (i 0).val < 12288 := (i 0).isLt
  have hi1 : (i 1).val < 12288 := (i 1).isLt
  have hN : cfg10.N = 144 := N_10
  obtain ⟨-, -, -, -, e0, e1, -⟩ := idx_facts_sst ⟨12 * ((i 0).val / 1024) + (i 1).val / 1024, by omega⟩
  refine ⟨⟨12 * ((i 0).val / 1024) + (i 1).val / 1024, by omega⟩, flush10_2 _, ?_⟩
  rw [mem_blk_sst]
  intro a
  match a with
  | ⟨0, _⟩ => show win10_2.index _ (0 : Fin 2) * 1024 ≤ (i 0).val ∧ (i 0).val < win10_2.index _ (0 : Fin 2) * 1024 + 1024; rw [e0]; show (12 * ((i 0).val / 1024) + (i 1).val / 1024) / 12 * 1024 ≤ (i 0).val ∧ (i 0).val < (12 * ((i 0).val / 1024) + (i 1).val / 1024) / 12 * 1024 + 1024; omega
  | ⟨1, _⟩ => show win10_2.index _ (1 : Fin 2) * 1024 ≤ (i 1).val ∧ (i 1).val < win10_2.index _ (1 : Fin 2) * 1024 + 1024; rw [e1]; show (12 * ((i 0).val / 1024) + (i 1).val / 1024) % 12 * 1024 ≤ (i 1).val ∧ (i 1).val < (12 * ((i 0).val / 1024) + (i 1).val / 1024) % 12 * 1024 + 1024; omega

end Blocks

section Whole

variable [Cert.ReferenceIdeal.Facts]
variable (V : (c : Dev nD) → (b : Ref sig .tc) → Buf (Elt Ideal) ((c : Thread nD τ).loc b))

/-! ## The reference's Gram matrix at an index -/

theorem lhs_gram_0 (i : Cert.ReferenceIdeal.S12288x12288.Idx) (q : Cert.ReferenceIdeal.dot_S12288x64_S64x12288_S12288x12288_1_0_0_1_n_n.contr.Idx) :
    (Cert.ReferenceIdeal.dot_S12288x64_S64x12288_S12288x12288_1_0_0_1_n_n.lhsIdx i q 0).val = (i 0).val := by
  unfold DotDims.lhsIdx
  rw [dif_neg (show ¬(0 : Fin Cert.ReferenceIdeal.S12288x64.rank) ∈ Cert.ReferenceIdeal.dot_S12288x64_S64x12288_S12288x12288_1_0_0_1_n_n.lhsBatch from List.not_mem_nil), dif_pos (show (0 : Fin Cert.ReferenceIdeal.S12288x64.rank) ∈ Cert.ReferenceIdeal.dot_S12288x64_S64x12288_S12288x12288_1_0_0_1_n_n.lhsNonContracting from List.mem_singleton.mpr rfl)]
  rfl
theorem lhs_gram_1 (i : Cert.ReferenceIdeal.S12288x12288.Idx) (q : Cert.ReferenceIdeal.dot_S12288x64_S64x12288_S12288x12288_1_0_0_1_n_n.contr.Idx) :
    (Cert.ReferenceIdeal.dot_S12288x64_S64x12288_S12288x12288_1_0_0_1_n_n.lhsIdx i q 1).val = (q ⟨0, Nat.one_pos⟩).val :=
  Cert.ReferenceIdeal.dot_S12288x64_S64x12288_S12288x12288_1_0_0_1_n_n.lhsIdx_val_of_single rfl i q
theorem rhs_gram_0 (i : Cert.ReferenceIdeal.S12288x12288.Idx) (q : Cert.ReferenceIdeal.dot_S12288x64_S64x12288_S12288x12288_1_0_0_1_n_n.contr.Idx) :
    (Cert.ReferenceIdeal.dot_S12288x64_S64x12288_S12288x12288_1_0_0_1_n_n.rhsIdx i q 0).val = (q ⟨0, Nat.one_pos⟩).val :=
  Cert.ReferenceIdeal.dot_S12288x64_S64x12288_S12288x12288_1_0_0_1_n_n.rhsIdx_val_of_single rfl i q
theorem rhs_gram_1 (i : Cert.ReferenceIdeal.S12288x12288.Idx) (q : Cert.ReferenceIdeal.dot_S12288x64_S64x12288_S12288x12288_1_0_0_1_n_n.contr.Idx) :
    (Cert.ReferenceIdeal.dot_S12288x64_S64x12288_S12288x12288_1_0_0_1_n_n.rhsIdx i q 1).val = (i 1).val := by
  unfold DotDims.rhsIdx
  rw [dif_neg (show ¬(1 : Fin Cert.ReferenceIdeal.S64x12288.rank) ∈ Cert.ReferenceIdeal.dot_S12288x64_S64x12288_S12288x12288_1_0_0_1_n_n.rhsBatch from List.not_mem_nil), dif_pos (show (1 : Fin Cert.ReferenceIdeal.S64x12288.rank) ∈ Cert.ReferenceIdeal.dot_S12288x64_S64x12288_S12288x12288_1_0_0_1_n_n.rhsNonContracting from List.mem_singleton.mpr rfl)]
  rfl

/-- The transposed embedding at (k, r) is the embedding at (r, k). -/
theorem tr_gram_apply (s : Cert.ReferenceIdeal.S12288x64.Idx → EReal) (k : Fin 64) (r : Fin 12288) :
    (transpose Cert.ReferenceIdeal.S64x12288 [1, 0] s Cert.ReferenceIdeal.Facts₀.transposes_S12288x64_S64x12288_1_0 : Cert.ReferenceIdeal.S64x12288.Idx → EReal) (ix2 k r) = s (ix2 r k) :=
  transpose_apply [1, 0] s Cert.ReferenceIdeal.Facts₀.transposes_S12288x64_S64x12288_1_0 (ix2 k r) (ix2 r k) (fun b => match b with
    | ⟨0, _⟩ => rfl
    | ⟨1, _⟩ => rfl)

/-- The Gram matrix at row `r`, column `r'`: the sum over `k` of the embedding's entry (r, k) times its entry (r', k). -/
theorem gram_apply (s : Cert.ReferenceIdeal.S12288x64.Idx → EReal) (r r' : Fin 12288) :
    (Cert.ReferenceIdeal.Forms.gram (F := Ideal) s : Cert.ReferenceIdeal.S12288x12288.Idx → EReal) (ix2 r r')
      = ∑ k : Fin 64, s (ix2 r k) * s (ix2 r' k) := by
  unfold Cert.ReferenceIdeal.Forms.gram
  simp only [Host.dotGeneral]
  rw [Ideal.dotGeneral_apply, ← Equiv.sum_comp (ValueIdx.contrEquiv1 Cert.ReferenceIdeal.dot_S12288x64_S64x12288_S12288x12288_1_0_0_1_n_n 64 rfl rfl).symm]
  refine Finset.sum_congr rfl fun k _ => ?_
  have hk := ValueIdx.contrEquiv1_symm_val Cert.ReferenceIdeal.dot_S12288x64_S64x12288_S12288x12288_1_0_0_1_n_n 64 rfl rfl k
  have el : Cert.ReferenceIdeal.dot_S12288x64_S64x12288_S12288x12288_1_0_0_1_n_n.lhsIdx (ix2 r r') ((ValueIdx.contrEquiv1 Cert.ReferenceIdeal.dot_S12288x64_S64x12288_S12288x12288_1_0_0_1_n_n 64 rfl rfl).symm k) = ix2 r k := funext fun a => Fin.ext (by
    match a with
    | ⟨0, _⟩ => exact lhs_gram_0 _ _
    | ⟨1, _⟩ => exact (lhs_gram_1 _ _).trans hk)
  have er : Cert.ReferenceIdeal.dot_S12288x64_S64x12288_S12288x12288_1_0_0_1_n_n.rhsIdx (ix2 r r') ((ValueIdx.contrEquiv1 Cert.ReferenceIdeal.dot_S12288x64_S64x12288_S12288x12288_1_0_0_1_n_n 64 rfl rfl).symm k) = ix2 k r' := funext fun a => Fin.ext (by
    match a with
    | ⟨0, _⟩ => exact (rhs_gram_0 _ _).trans hk
    | ⟨1, _⟩ => exact rhs_gram_1 _ _)
  rw [el, er, tr_gram_apply]

/-! ## From the blocks to the array -/

/-- One block's entry against the whole Gram matrix: when the two loaded blocks are the row ranges starting at rows
    `r - p` and `r' - q` of the embedding, the payload at (p, q) is the Gram matrix at (r, r'). -/
theorem blk_sst_eq (s : Cert.ReferenceIdeal.S12288x64.Idx → EReal) (x0 x1 : Vec Ideal S1024x64 .f32)
    (p q : Fin 1024) (r r' : Fin 12288)
    (h0 : ∀ k : Fin 64, (x0 : S1024x64.Idx → EReal) (ix2 p k) = s (ix2 r k))
    (h1 : ∀ k : Fin 64, (x1 : S1024x64.Idx → EReal) (ix2 q k) = s (ix2 r' k)) :
    k10_pay1 x0 x1 (ix2 p q)
      = (Cert.ReferenceIdeal.Forms.gram (F := Ideal) s : Cert.ReferenceIdeal.S12288x12288.Idx → EReal) (ix2 r r') := by
  rw [pay_sst_apply, gram_apply]
  exact Finset.sum_congr rfl fun k _ => by rw [h0 k, h1 k]

/-- What point `t` writes back is block `t` of the Gram matrix of the embedding as the region finds it. -/
theorem flushed_sst_eq (c : Dev nD) (t : Fin cfg10.N) :
    (dat10 V c).flushed 2 t = ((cfg10.win 2).blk t).view.read (Elt Ideal)
      (Cert.ReferenceIdeal.Forms.gram (F := Ideal) (V c main_v108)) := by
  obtain ⟨-, -, -, -, e0, e1, ht⟩ := idx_facts_sst t
  show (cfg10.win 2).cut (grid10.coords t) ((dat10 V c).after 2 t) = _
  rw [after10_2]
  unfold out10_2
  rw [View.canon_unit_zero hz_sst]
  simp only [View.ld_unit_zero (S := S1024x64) hz_sst]
  funext j
  rw [View.read_apply]
  have hj0 : (j 0).val < 1024 := (j 0).isLt
  have hj1 : (j 1).val < 1024 := (j 1).isLt
  have hemb : ((cfg10.win 2).blk t).view.emb j = (ix2 (⟨1024 * (t.val / 12) + (j 0).val, by omega⟩ : Fin 12288) (⟨1024 * (t.val % 12) + (j 1).val, by omega⟩ : Fin 12288) : S12288x12288.Idx) := by
    funext a; apply Fin.ext
    match a with
    | ⟨0, _⟩ => show win10_2.index t (0 : Fin 2) * 1024 + 1 * (j 0).val = 1024 * (t.val / 12) + (j 0).val; omega
    | ⟨1, _⟩ => show win10_2.index t (1 : Fin 2) * 1024 + 1 * (j 1).val = 1024 * (t.val % 12) + (j 1).val; omega
  rw [hemb]
  obtain ⟨p, q, rfl⟩ : ∃ (p q : Fin 1024), j = ix2 p q := ⟨j 0, j 1, eq_ix2 j⟩
  exact blk_sst_eq (V c main_v108) (iblk10 V c 0 t) (iblk10 V c 1 t) p q _ _
    (fun k => iblk_sst_0_apply V c t p k _ rfl) (fun k => iblk_sst_1_apply V c t q k _ rfl)

/-- After the region's 144 points the output array is the Gram matrix of the embedding the region found. -/
theorem arrAt_sst (c : Dev nD) :
    (dat10 (F := Ideal) V c).arrAt 2 cfg10.N = Cert.ReferenceIdeal.Forms.gram (F := Ideal) (V c main_v108) :=
  (dat10 V c).arrAt_eq_of_cover 2 _ (fun t _ => flushed_sst_eq V c t) covered_sst

end Whole

end Cert.KernelIdeal.Hand

end
-- ==== Proof.Agg1.lean ====
/-
  The neighbourhood sum before region 1: the host operations between two regions gather the rows of the previous
  result by source node (a source index below zero counted from the end), scale each gathered row by its edge's
  normalisation, and add the scaled rows into the destination nodes' rows of a zero array. Whatever the buffers hold
  when the stretch begins, the array it leaves in its result buffer is the reference's neighbourhood sum at feature
  width 128, taken of the four arrays the stretch reads.
-/
import proofs.«135987_j23871428231489_1_alg».proof.Proof.Gen.KernelIdeal.Launch
import proofs.«135987_j23871428231489_1_alg».proof.Proof.RForms
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- From any contents `W` of the TensorCore's buffers, the stretch leaves in `main_v47` the neighbourhood sum of the rows
    of `main_v34` over the edges (sources `main_v1`, destinations `main_v3`, normalisation `main_v30`). The two programs
    spell the shapes and the gather and scatter dimension records separately; they are the same literal records. -/
theorem agg1_eq [Cert.ReferenceIdeal.Facts] (W : Valuation τ sig (Elt F)) :
    StableHlo.after (hostOps1 (F := F)) W main_v47
      = Cert.ReferenceIdeal.Forms.agg128 (F := F) (W main_v34) (W main_v1) (W main_v3) (W main_v30) := by
  show StableHlo.after hostOps1 W (Proc.devRef .tc main_v47) = _
  after_results_simp
  rfl

end Cert.KernelIdeal.Hand

end
-- ==== Proof.Agg3.lean ====
/-
  The neighbourhood sum before region 3: the host operations between two regions gather the rows of the previous
  result by source node (a source index below zero counted from the end), scale each gathered row by its edge's
  normalisation, and add the scaled rows into the destination nodes' rows of a zero array. Whatever the buffers hold
  when the stretch begins, the array it leaves in its result buffer is the reference's neighbourhood sum at feature
  width 64, taken of the four arrays the stretch reads.
-/
import proofs.«135987_j23871428231489_1_alg».proof.Proof.Gen.KernelIdeal.Launch
import proofs.«135987_j23871428231489_1_alg».proof.Proof.RForms
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- From any contents `W` of the TensorCore's buffers, the stretch leaves in `main_v62` the neighbourhood sum of the rows
    of `main_v49` over the edges (sources `main_v1`, destinations `main_v3`, normalisation `main_v30`). The two programs
    spell the shapes and the gather and scatter dimension records separately; they are the same literal records. -/
theorem agg3_eq [Cert.ReferenceIdeal.Facts] (W : Valuation τ sig (Elt F)) :
    StableHlo.after (hostOps3 (F := F)) W main_v62
      = Cert.ReferenceIdeal.Forms.agg64 (F := F) (W main_v49) (W main_v1) (W main_v3) (W main_v30) := by
  show StableHlo.after hostOps3 W (Proc.devRef .tc main_v62) = _
  after_results_simp
  rfl

end Cert.KernelIdeal.Hand

end
-- ==== Proof.Agg5.lean ====
/-
  The neighbourhood sum before region 5: the host operations between two regions gather the rows of the previous
  result by source node (a source index below zero counted from the end), scale each gathered row by its edge's
  normalisation, and add the scaled rows into the destination nodes' rows of a zero array. Whatever the buffers hold
  when the stretch begins, the array it leaves in its result buffer is the reference's neighbourhood sum at feature
  width 128, taken of the four arrays the stretch reads.
-/
import proofs.«135987_j23871428231489_1_alg».proof.Proof.Gen.KernelIdeal.Launch
import proofs.«135987_j23871428231489_1_alg».proof.Proof.RForms
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- From any contents `W` of the TensorCore's buffers, the stretch leaves in `main_v77` the neighbourhood sum of the rows
    of `main_v64` over the edges (sources `main_v1`, destinations `main_v3`, normalisation `main_v30`). The two programs
    spell the shapes and the gather and scatter dimension records separately; they are the same literal records. -/
theorem agg5_eq [Cert.ReferenceIdeal.Facts] (W : Valuation τ sig (Elt F)) :
    StableHlo.after (hostOps5 (F := F)) W main_v77
      = Cert.ReferenceIdeal.Forms.agg128 (F := F) (W main_v64) (W main_v1) (W main_v3) (W main_v30) := by
  show StableHlo.after hostOps5 W (Proc.devRef .tc main_v77) = _
  after_results_simp
  rfl

end Cert.KernelIdeal.Hand

end
-- ==== Proof.Agg7.lean ====
/-
  The neighbourhood sum before region 7: the host operations between two regions gather the rows of the previous
  result by source node (a source index below zero counted from the end), scale each gathered row by its edge's
  normalisation, and add the scaled rows into the destination nodes' rows of a zero array. Whatever the buffers hold
  when the stretch begins, the array it leaves in its result buffer is the reference's neighbourhood sum at feature
  width 256, taken of the four arrays the stretch reads.
-/
import proofs.«135987_j23871428231489_1_alg».proof.Proof.Gen.KernelIdeal.Launch
import proofs.«135987_j23871428231489_1_alg».proof.Proof.RForms
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- From any contents `W` of the TensorCore's buffers, the stretch leaves in `main_v92` the neighbourhood sum of the rows
    of `main_v79` over the edges (sources `main_v1`, destinations `main_v3`, normalisation `main_v30`). The two programs
    spell the shapes and the gather and scatter dimension records separately; they are the same literal records. -/
theorem agg7_eq [Cert.ReferenceIdeal.Facts] (W : Valuation τ sig (Elt F)) :
    StableHlo.after (hostOps7 (F := F)) W main_v92
      = Cert.ReferenceIdeal.Forms.agg256 (F := F) (W main_v79) (W main_v1) (W main_v3) (W main_v30) := by
  show StableHlo.after hostOps7 W (Proc.devRef .tc main_v92) = _
  after_results_simp
  rfl

end Cert.KernelIdeal.Hand

end
-- ==== Proof.Agg9.lean ====
/-
  The neighbourhood sum before region 9: the host operations between two regions gather the rows of the previous
  result by source node (a source index below zero counted from the end), scale each gathered row by its edge's
  normalisation, and add the scaled rows into the destination nodes' rows of a zero array. Whatever the buffers hold
  when the stretch begins, the array it leaves in its result buffer is the reference's neighbourhood sum at feature
  width 64, taken of the four arrays the stretch reads.
-/
import proofs.«135987_j23871428231489_1_alg».proof.Proof.Gen.KernelIdeal.Launch
import proofs.«135987_j23871428231489_1_alg».proof.Proof.RForms
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- From any contents `W` of the TensorCore's buffers, the stretch leaves in `main_v107` the neighbourhood sum of the rows
    of `main_v94` over the edges (sources `main_v1`, destinations `main_v3`, normalisation `main_v30`). The two programs
    spell the shapes and the gather and scatter dimension records separately; they are the same literal records. -/
theorem agg9_eq [Cert.ReferenceIdeal.Facts] (W : Valuation τ sig (Elt F)) :
    StableHlo.after (hostOps9 (F := F)) W main_v107
      = Cert.ReferenceIdeal.Forms.agg64 (F := F) (W main_v94) (W main_v1) (W main_v3) (W main_v30) := by
  show StableHlo.after hostOps9 W (Proc.devRef .tc main_v107) = _
  after_results_simp
  rfl

end Cert.KernelIdeal.Hand

end
-- ==== Proof.Edge.lean ====
/-
  The edge arrays. Before its first region the program computes, from the edge list (two rows of node indices: the
  sources and the destinations), the source and destination index vectors, the degree of every node (one plus the
  number of edges into it, indices below zero counted from the end), the edge normalisation
  rsqrt(deg(src)) · rsqrt(deg(dst)), and the inverse degree 1/deg as a column. The reference computes the same arrays by
  the same operations in the same order, except that it makes the column by broadcasting the vector along a new unit
  axis where this program reshapes it. Stated here: each of the four arrays the later stages read is the reference's
  stage of the edge list, first from arbitrary buffer contents, then at the launch contents.
-/
import proofs.«135987_j23871428231489_1_alg».proof.Proof.Gen.KernelIdeal.Regions
import proofs.«135987_j23871428231489_1_alg».proof.Proof.Gen.ReferenceIdeal.Read
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- A vector of 12288 elements laid out as a column by a reshape is the same array as the vector broadcast along
    the rows of a one-column array: both hold at (r, 0) the vector's element r. -/
theorem col_reshape_eq_bcast {α : Type} (v : (⟨1, ![12288]⟩ : Shape).Idx → α)
    (hc : (⟨1, ![12288]⟩ : Shape).ShapeCasts ⟨2, ![12288, 1]⟩)
    (hb : (⟨1, ![12288]⟩ : Shape).BroadcastsInDim ⟨2, ![12288, 1]⟩ (![0] : Fin 1 → Fin 2)) :
    shapeCast (⟨2, ![12288, 1]⟩ : Shape) v hc = broadcastInDim (⟨2, ![12288, 1]⟩ : Shape) ![0] hb v := by
  funext j
  have h1 : (j 1).val < 1 := (j 1).isLt
  let k : (⟨1, ![12288]⟩ : Shape).Idx := fun a => match a with
    | ⟨0, _⟩ => ⟨(j 0).val, (j 0).isLt⟩
  rw [shapeCast_apply v hc j k (by
      rw [Shape.rowMajor_val_one, Shape.rowMajor_val_two]
      show (j 0).val = (j 0).val * 1 + (j 1).val
      omega)]
  rw [broadcastInDim_apply ![0] hb v j k (fun a => match a with
      | ⟨0, _⟩ => by show (j 0).val = if (12288 : Nat) = 1 then 0 else (j 0).val; rw [if_neg (by decide)])]

/-! ## The first host stretch from any contents

The stretch's first operations are the reference's first operations, one for one, on the edge list; so each array it
leaves is the reference's stage of the same name, taken of whatever the edge-list buffer held when the stretch began. -/

/-- The source indices: row 0 of the edge list. -/
theorem edgeW_v1 (W : Valuation τ sig (Elt F)) :
    StableHlo.after (hostOps0 (F := F)) W main_v1 = Cert.ReferenceIdeal.Read.val_main_v1 (F := F) (W main_arg1) := by
  show StableHlo.after hostOps0 W (Proc.devRef .tc main_v1) = _
  after_results_simp
  rfl

/-- The destination indices: row 1 of the edge list. -/
theorem edgeW_v3 (W : Valuation τ sig (Elt F)) :
    StableHlo.after (hostOps0 (F := F)) W main_v3 = Cert.ReferenceIdeal.Read.val_main_v3 (F := F) (W main_arg1) := by
  show StableHlo.after hostOps0 W (Proc.devRef .tc main_v3) = _
  after_results_simp
  rfl

/-- The edge normalisation: the product of the inverse square roots of the degrees (one plus the number of edges into
    the node) of the edge's two end nodes. -/
theorem edgeW_v30 (W : Valuation τ sig (Elt F)) :
    StableHlo.after (hostOps0 (F := F)) W main_v30 = Cert.ReferenceIdeal.Read.val_main_v30 (F := F) (W main_arg1) := by
  show StableHlo.after hostOps0 W (Proc.devRef .tc main_v30) = _
  after_results_simp
  rfl

/-- The inverse degree as a vector, before either program lays it out as a column. -/
theorem edgeW_v32 (W : Valuation τ sig (Elt F)) :
    StableHlo.after (hostOps0 (F := F)) W main_v32 = Cert.ReferenceIdeal.Read.val_main_v32 (F := F) (W main_arg1) := by
  show StableHlo.after hostOps0 W (Proc.devRef .tc main_v32) = _
  after_results_simp
  rfl

/-- The inverse-degree column: this program reshapes the vector to one column where the reference broadcasts it to one
    column; the two layouts are the same array. -/
theorem edgeW_v33 (W : Valuation τ sig (Elt F)) :
    StableHlo.after (hostOps0 (F := F)) W main_v33 = Cert.ReferenceIdeal.Read.val_main_v47 (F := F) (W main_arg1) := by
  have e : StableHlo.after (hostOps0 (F := F)) W main_v33
      = shapeCast S12288x1 (Cert.ReferenceIdeal.Read.val_main_v32 (F := F) (W main_arg1)) shapeCasts_S12288_S12288x1 := by
    show StableHlo.after hostOps0 W (Proc.devRef .tc main_v33) = _
    after_results_simp
    rfl
  refine e.trans ?_
  unfold Cert.ReferenceIdeal.Read.val_main_v47
  exact col_reshape_eq_bcast _ _ _

/-! ## The same at the launch contents -/

variable (m : (ℓ : Loc nD τ sig) → Buf (Elt F) ℓ)

/-- The source indices after the first host stretch, of the edge list at launch. -/
theorem edge_v1 (c : Dev nD) :
    V1 m c main_v1 = Cert.ReferenceIdeal.Read.val_main_v1 (F := F) (m ((c.tc : Thread nD τ).loc main_arg1)) :=
  edgeW_v1 (V0 m c)

/-- The destination indices after the first host stretch, of the edge list at launch. -/
theorem edge_v3 (c : Dev nD) :
    V1 m c main_v3 = Cert.ReferenceIdeal.Read.val_main_v3 (F := F) (m ((c.tc : Thread nD τ).loc main_arg1)) :=
  edgeW_v3 (V0 m c)

/-- The edge normalisation after the first host stretch, of the edge list at launch. -/
theorem edge_v30 (c : Dev nD) :
    V1 m c main_v30 = Cert.ReferenceIdeal.Read.val_main_v30 (F := F) (m ((c.tc : Thread nD τ).loc main_arg1)) :=
  edgeW_v30 (V0 m c)

/-- The inverse-degree column after the first host stretch, of the edge list at launch. -/
theorem edge_v33 (c : Dev nD) :
    V1 m c main_v33 = Cert.ReferenceIdeal.Read.val_main_v47 (F := F) (m ((c.tc : Thread nD τ).loc main_arg1)) :=
  edgeW_v33 (V0 m c)

end Cert.KernelIdeal.Hand

end
-- ==== Proof.RChain.lean ====
/-
  The reference program's stages, layer by layer, as the forms of RForms: each layer's neighbourhood sum, its
  (rectified) affine combination, the next dense transform, and the structure decoder's Gram matrix, every one a form
  applied to the stages before it. Each equation holds by unfolding the stage's definition.
-/
import proofs.«135987_j23871428231489_1_alg».proof.Proof.Gen.ReferenceIdeal.Read
import proofs.«135987_j23871428231489_1_alg».proof.Proof.RForms

set_option maxRecDepth 16384

noncomputable section

namespace Cert.ReferenceIdeal.Chain

open Cert.ReferenceIdeal Cert.ReferenceIdeal.Gen Cert.ReferenceIdeal.Read Cert.ReferenceIdeal.Forms
open Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The first dense transform. -/
theorem h1_eq (x0 : (⟨S12288x256, .f32⟩ : BufTy).Contents (Elt F)) (x2 : (⟨S256x128, .f32⟩ : BufTy).Contents (Elt F)) :
    val_main_v33 (F := F) x0 x2 = Host.dotGeneral dot_S12288x256_S256x128_S12288x128_1_0_0_1_n_n none x0 x2 := rfl
/-- Layer 1's neighbourhood sum. -/
theorem agg1_eq (x0 : (⟨S12288x256, .f32⟩ : BufTy).Contents (Elt F)) (x1 : (⟨S2x393216, .i32⟩ : BufTy).Contents (Elt F)) (x2 : (⟨S256x128, .f32⟩ : BufTy).Contents (Elt F)) :
    val_main_v46 (F := F) x0 x1 x2 = agg128 (val_main_v33 (F := F) x0 x2) (val_main_v1 (F := F) x1) (val_main_v3 (F := F) x1) (val_main_v30 (F := F) x1) := rfl
/-- Layer 1's rectified combination. -/
theorem z1_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) :
    val_main_v54 (F := F) x0 x1 x2 x3 = cmb128 (val_main_v46 (F := F) x0 x1 x2) (val_main_v33 (F := F) x0 x2) (val_main_v47 (F := F) x1) x3 := rfl
/-- The second dense transform. -/
theorem h2_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) :
    val_main_v55 (F := F) x0 x1 x2 x3 x4 = Host.dotGeneral dot_S12288x128_S128x64_S12288x64_1_0_0_1_n_n none (val_main_v54 (F := F) x0 x1 x2 x3) x4 := rfl
/-- Layer 2's neighbourhood sum. -/
theorem agg2_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) :
    val_main_v68 (F := F) x0 x1 x2 x3 x4 = agg64 (val_main_v55 (F := F) x0 x1 x2 x3 x4) (val_main_v1 (F := F) x1) (val_main_v3 (F := F) x1) (val_main_v30 (F := F) x1) := rfl
/-- Layer 2's rectified combination: the embedding z. -/
theorem z2_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) :
    val_main_v76 (F := F) x0 x1 x2 x3 x4 x5 = cmb64 (val_main_v68 (F := F) x0 x1 x2 x3 x4) (val_main_v55 (F := F) x0 x1 x2 x3 x4) (val_main_v47 (F := F) x1) x5 := rfl
/-- The attribute decoder's first dense transform. -/
theorem h3_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) :
    val_main_v77 (F := F) x0 x1 x2 x3 x4 x5 x6 = Host.dotGeneral dot_S12288x64_S64x128_S12288x128_1_0_0_1_n_n none (val_main_v76 (F := F) x0 x1 x2 x3 x4 x5) x6 := rfl
/-- Layer 3's neighbourhood sum. -/
theorem agg3_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) :
    val_main_v90 (F := F) x0 x1 x2 x3 x4 x5 x6 = agg128 (val_main_v77 (F := F) x0 x1 x2 x3 x4 x5 x6) (val_main_v1 (F := F) x1) (val_main_v3 (F := F) x1) (val_main_v30 (F := F) x1) := rfl
/-- Layer 3's rectified combination. -/
theorem z3_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) :
    val_main_v98 (F := F) x0 x1 x2 x3 x4 x5 x6 x7 = cmb128 (val_main_v90 (F := F) x0 x1 x2 x3 x4 x5 x6) (val_main_v77 (F := F) x0 x1 x2 x3 x4 x5 x6) (val_main_v47 (F := F) x1) x7 := rfl
/-- The attribute decoder's second dense transform. -/
theorem h4_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x256, .f32⟩ : BufTy).Contents (Elt F)) :
    val_main_v99 (F := F) x0 x1 x2 x3 x4 x5 x6 x7 x8 = Host.dotGeneral dot_S12288x128_S128x256_S12288x256_1_0_0_1_n_n none (val_main_v98 (F := F) x0 x1 x2 x3 x4 x5 x6 x7) x8 := rfl
/-- Layer 4's neighbourhood sum. -/
theorem agg4_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x256, .f32⟩ : BufTy).Contents (Elt F)) :
    val_main_v112 (F := F) x0 x1 x2 x3 x4 x5 x6 x7 x8 = agg256 (val_main_v99 (F := F) x0 x1 x2 x3 x4 x5 x6 x7 x8) (val_main_v1 (F := F) x1) (val_main_v3 (F := F) x1) (val_main_v30 (F := F) x1) := rfl
/-- Layer 4's combination, not rectified: the reconstructed attributes. -/
theorem z4_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x256, .f32⟩ : BufTy).Contents (Elt F)) (x9 : (⟨S256, .f32⟩ : BufTy).Contents (Elt F)) :
    val_main_v119 (F := F) x0 x1 x2 x3 x4 x5 x6 x7 x8 x9 = lin256 (val_main_v112 (F := F) x0 x1 x2 x3 x4 x5 x6 x7 x8) (val_main_v99 (F := F) x0 x1 x2 x3 x4 x5 x6 x7 x8) (val_main_v47 (F := F) x1) x9 := rfl
/-- The structure decoder's dense transform. -/
theorem h5_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x10 : (⟨S64x64, .f32⟩ : BufTy).Contents (Elt F)) :
    val_main_v120 (F := F) x0 x1 x2 x3 x4 x5 x10 = Host.dotGeneral dot_S12288x64_S64x64_S12288x64_1_0_0_1_n_n none (val_main_v76 (F := F) x0 x1 x2 x3 x4 x5) x10 := rfl
/-- Layer 5's neighbourhood sum. -/
theorem agg5_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x10 : (⟨S64x64, .f32⟩ : BufTy).Contents (Elt F)) :
    val_main_v133 (F := F) x0 x1 x2 x3 x4 x5 x10 = agg64 (val_main_v120 (F := F) x0 x1 x2 x3 x4 x5 x10) (val_main_v1 (F := F) x1) (val_main_v3 (F := F) x1) (val_main_v30 (F := F) x1) := rfl
/-- Layer 5's rectified combination. -/
theorem z5_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x10 : (⟨S64x64, .f32⟩ : BufTy).Contents (Elt F)) (x11 : (⟨S64, .f32⟩ : BufTy).Contents (Elt F)) :
    val_main_v141 (F := F) x0 x1 x2 x3 x4 x5 x10 x11 = cmb64 (val_main_v133 (F := F) x0 x1 x2 x3 x4 x5 x10) (val_main_v120 (F := F) x0 x1 x2 x3 x4 x5 x10) (val_main_v47 (F := F) x1) x11 := rfl
/-- The structure decoder's Gram matrix. -/
theorem gram_eq (x0 : (⟨S12288x256, .f32⟩ : BufTy).Contents (Elt F)) (x1 : (⟨S2x393216, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F)) (x10 : (⟨S64x64, .f32⟩ : BufTy).Contents (Elt F)) (x11 : (⟨S64, .f32⟩ : BufTy).Contents (Elt F)) :
    val_main_v143 (F := F) x0 x1 x2 x3 x4 x5 x10 x11 = gram (val_main_v141 (F := F) x0 x1 x2 x3 x4 x5 x10 x11) := rfl

end Cert.ReferenceIdeal.Chain

end
-- ==== Proof.Bridge.lean ====
/-
  The kernel program's results are the reference's. Along the chain of boundary contents, every array a later item
  reads is identified with the reference's stage of the same name in the network: the edge quantities (source and
  destination indices, the per-edge normalisation, the inverse-degree column) after the first host stretch; each dense
  transform's result, each neighbourhood sum, each (rectified) combination, layer by layer; the Gram matrix at the end.
  A region's result is read off the pipeline's array after its last grid point; a host stretch's off the operations'
  composed term; a buffer no later item writes keeps its contents.
-/
import proofs.«135987_j23871428231489_1_alg».proof.Proof.RunMain
import proofs.«135987_j23871428231489_1_alg».proof.Proof.ValMM0
import proofs.«135987_j23871428231489_1_alg».proof.Proof.ValMM2
import proofs.«135987_j23871428231489_1_alg».proof.Proof.ValMM4
import proofs.«135987_j23871428231489_1_alg».proof.Proof.ValMM6
import proofs.«135987_j23871428231489_1_alg».proof.Proof.ValMM8
import proofs.«135987_j23871428231489_1_alg».proof.Proof.ValCB1
import proofs.«135987_j23871428231489_1_alg».proof.Proof.ValCB3
import proofs.«135987_j23871428231489_1_alg».proof.Proof.ValCB5
import proofs.«135987_j23871428231489_1_alg».proof.Proof.ValCB7
import proofs.«135987_j23871428231489_1_alg».proof.Proof.ValCB9
import proofs.«135987_j23871428231489_1_alg».proof.Proof.ValSST
import proofs.«135987_j23871428231489_1_alg».proof.Proof.Agg1
import proofs.«135987_j23871428231489_1_alg».proof.Proof.Agg3
import proofs.«135987_j23871428231489_1_alg».proof.Proof.Agg5
import proofs.«135987_j23871428231489_1_alg».proof.Proof.Agg7
import proofs.«135987_j23871428231489_1_alg».proof.Proof.Agg9
import proofs.«135987_j23871428231489_1_alg».proof.Proof.Edge
import proofs.«135987_j23871428231489_1_alg».proof.Proof.RChain

set_option maxRecDepth 16384

noncomputable section

namespace Cert.KernelIdeal.Hand

open Idealize.ShloMosaic Idealize.ShloMosaic.TcCoe
open Idealize.SL Idealize.SL.Sem
open Cert.KernelIdeal Cert.KernelIdeal.Gen

variable [Cert.ReferenceIdeal.Facts] (m : (ℓ : Loc nD τ sig) → Buf (Elt Ideal) ℓ) (c : Dev nD)

/-! ## The arguments and the edge quantities keep their contents -/

theorem U1_arg0 : U1 m c main_arg0 = m ((c.tc : Thread nD τ).loc main_arg0) := by
  rw [U1_of m c main_arg0 (by decide)] <;> rfl
theorem U1_arg2 : U1 m c main_arg2 = m ((c.tc : Thread nD τ).loc main_arg2) := by
  rw [U1_of m c main_arg2 (by decide)] <;> rfl
theorem U3_arg3 : U3 m c main_arg3 = m ((c.tc : Thread nD τ).loc main_arg3) := by
  rw [U3_of m c main_arg3 (by decide), U2_of m c main_arg3 (by decide), U1_of m c main_arg3 (by decide)] <;> rfl
theorem U4_arg4 : U4 m c main_arg4 = m ((c.tc : Thread nD τ).loc main_arg4) := by
  rw [U4_of m c main_arg4 (by decide), U3_of m c main_arg4 (by decide), U2_of m c main_arg4 (by decide), U1_of m c main_arg4 (by decide)] <;> rfl
theorem U6_arg5 : U6 m c main_arg5 = m ((c.tc : Thread nD τ).loc main_arg5) := by
  rw [U6_of m c main_arg5 (by decide), U5_of m c main_arg5 (by decide), U4_of m c main_arg5 (by decide), U3_of m c main_arg5 (by decide), U2_of m c main_arg5 (by decide), U1_of m c main_arg5 (by decide)] <;> rfl
theorem U7_arg6 : U7 m c main_arg6 = m ((c.tc : Thread nD τ).loc main_arg6) := by
  rw [U7_of m c main_arg6 (by decide), U6_of m c main_arg6 (by decide), U5_of m c main_arg6 (by decide), U4_of m c main_arg6 (by decide), U3_of m c main_arg6 (by decide), U2_of m c main_arg6 (by decide), U1_of m c main_arg6 (by decide)] <;> rfl
theorem U9_arg7 : U9 m c main_arg7 = m ((c.tc : Thread nD τ).loc main_arg7) := by
  rw [U9_of m c main_arg7 (by decide), U8_of m c main_arg7 (by decide), U7_of m c main_arg7 (by decide), U6_of m c main_arg7 (by decide), U5_of m c main_arg7 (by decide), U4_of m c main_arg7 (by decide), U3_of m c main_arg7 (by decide), U2_of m c main_arg7 (by decide), U1_of m c main_arg7 (by decide)] <;> rfl
theorem U10_arg8 : U10 m c main_arg8 = m ((c.tc : Thread nD τ).loc main_arg8) := by
  rw [U10_of m c main_arg8 (by decide), U9_of m c main_arg8 (by decide), U8_of m c main_arg8 (by decide), U7_of m c main_arg8 (by decide), U6_of m c main_arg8 (by decide), U5_of m c main_arg8 (by decide), U4_of m c main_arg8 (by decide), U3_of m c main_arg8 (by decide), U2_of m c main_arg8 (by decide), U1_of m c main_arg8 (by decide)] <;> rfl
theorem U12_arg9 : U12 m c main_arg9 = m ((c.tc : Thread nD τ).loc main_arg9) := by
  rw [U12_of m c main_arg9 (by decide), U11_of m c main_arg9 (by decide), U10_of m c main_arg9 (by decide), U9_of m c main_arg9 (by decide), U8_of m c main_arg9 (by decide), U7_of m c main_arg9 (by decide), U6_of m c main_arg9 (by decide), U5_of m c main_arg9 (by decide), U4_of m c main_arg9 (by decide), U3_of m c main_arg9 (by decide), U2_of m c main_arg9 (by decide), U1_of m c main_arg9 (by decide)] <;> rfl
theorem U13_arg10 : U13 m c main_arg10 = m ((c.tc : Thread nD τ).loc main_arg10) := by
  rw [U13_of m c main_arg10 (by decide), U12_of m c main_arg10 (by decide), U11_of m c main_arg10 (by decide), U10_of m c main_arg10 (by decide), U9_of m c main_arg10 (by decide), U8_of m c main_arg10 (by decide), U7_of m c main_arg10 (by decide), U6_of m c main_arg10 (by decide), U5_of m c main_arg10 (by decide), U4_of m c main_arg10 (by decide), U3_of m c main_arg10 (by decide), U2_of m c main_arg10 (by decide), U1_of m c main_arg10 (by decide)] <;> rfl
theorem U15_arg11 : U15 m c main_arg11 = m ((c.tc : Thread nD τ).loc main_arg11) := by
  rw [U15_of m c main_arg11 (by decide), U14_of m c main_arg11 (by decide), U13_of m c main_arg11 (by decide), U12_of m c main_arg11 (by decide), U11_of m c main_arg11 (by decide), U10_of m c main_arg11 (by decide), U9_of m c main_arg11 (by decide), U8_of m c main_arg11 (by decide), U7_of m c main_arg11 (by decide), U6_of m c main_arg11 (by decide), U5_of m c main_arg11 (by decide), U4_of m c main_arg11 (by decide), U3_of m c main_arg11 (by decide), U2_of m c main_arg11 (by decide), U1_of m c main_arg11 (by decide)] <;> rfl

/-- The inverse-degree column, read by every combination. -/
theorem U3_col : U3 m c main_v33 = Cert.ReferenceIdeal.Read.val_main_v47 (F := Ideal) (m ((c.tc : Thread nD τ).loc main_arg1)) := by
  rw [U3_of m c main_v33 (by decide), U2_of m c main_v33 (by decide)]; exact edge_v33 m c
theorem U6_col : U6 m c main_v33 = Cert.ReferenceIdeal.Read.val_main_v47 (F := Ideal) (m ((c.tc : Thread nD τ).loc main_arg1)) := by
  rw [U6_of m c main_v33 (by decide), U5_of m c main_v33 (by decide), U4_of m c main_v33 (by decide), U3_of m c main_v33 (by decide), U2_of m c main_v33 (by decide)]; exact edge_v33 m c
theorem U9_col : U9 m c main_v33 = Cert.ReferenceIdeal.Read.val_main_v47 (F := Ideal) (m ((c.tc : Thread nD τ).loc main_arg1)) := by
  rw [U9_of m c main_v33 (by decide), U8_of m c main_v33 (by decide), U7_of m c main_v33 (by decide), U6_of m c main_v33 (by decide), U5_of m c main_v33 (by decide), U4_of m c main_v33 (by decide), U3_of m c main_v33 (by decide), U2_of m c main_v33 (by decide)]; exact edge_v33 m c
theorem U12_col : U12 m c main_v33 = Cert.ReferenceIdeal.Read.val_main_v47 (F := Ideal) (m ((c.tc : Thread nD τ).loc main_arg1)) := by
  rw [U12_of m c main_v33 (by decide), U11_of m c main_v33 (by decide), U10_of m c main_v33 (by decide), U9_of m c main_v33 (by decide), U8_of m c main_v33 (by decide), U7_of m c main_v33 (by decide), U6_of m c main_v33 (by decide), U5_of m c main_v33 (by decide), U4_of m c main_v33 (by decide), U3_of m c main_v33 (by decide), U2_of m c main_v33 (by decide)]; exact edge_v33 m c
theorem U15_col : U15 m c main_v33 = Cert.ReferenceIdeal.Read.val_main_v47 (F := Ideal) (m ((c.tc : Thread nD τ).loc main_arg1)) := by
  rw [U15_of m c main_v33 (by decide), U14_of m c main_v33 (by decide), U13_of m c main_v33 (by decide), U12_of m c main_v33 (by decide), U11_of m c main_v33 (by decide), U10_of m c main_v33 (by decide), U9_of m c main_v33 (by decide), U8_of m c main_v33 (by decide), U7_of m c main_v33 (by decide), U6_of m c main_v33 (by decide), U5_of m c main_v33 (by decide), U4_of m c main_v33 (by decide), U3_of m c main_v33 (by decide), U2_of m c main_v33 (by decide)]; exact edge_v33 m c

/-- The edge quantities, read by every neighbourhood sum. -/
theorem U2_v1 : U2 m c main_v1 = Cert.ReferenceIdeal.Read.val_main_v1 (F := Ideal) (m ((c.tc : Thread nD τ).loc main_arg1)) := by
  rw [U2_of m c main_v1 (by decide)]; exact edge_v1 m c
theorem U2_v3 : U2 m c main_v3 = Cert.ReferenceIdeal.Read.val_main_v3 (F := Ideal) (m ((c.tc : Thread nD τ).loc main_arg1)) := by
  rw [U2_of m c main_v3 (by decide)]; exact edge_v3 m c
theorem U2_v30 : U2 m c main_v30 = Cert.ReferenceIdeal.Read.val_main_v30 (F := Ideal) (m ((c.tc : Thread nD τ).loc main_arg1)) := by
  rw [U2_of m c main_v30 (by decide)]; exact edge_v30 m c
theorem U5_v1 : U5 m c main_v1 = Cert.ReferenceIdeal.Read.val_main_v1 (F := Ideal) (m ((c.tc : Thread nD τ).loc main_arg1)) := by
  rw [U5_of m c main_v1 (by decide), U4_of m c main_v1 (by decide), U3_of m c main_v1 (by decide), U2_of m c main_v1 (by decide)]; exact edge_v1 m c
theorem U5_v3 : U5 m c main_v3 = Cert.ReferenceIdeal.Read.val_main_v3 (F := Ideal) (m ((c.tc : Thread nD τ).loc main_arg1)) := by
  rw [U5_of m c main_v3 (by decide), U4_of m c main_v3 (by decide), U3_of m c main_v3 (by decide), U2_of m c main_v3 (by decide)]; exact edge_v3 m c
theorem U5_v30 : U5 m c main_v30 = Cert.ReferenceIdeal.Read.val_main_v30 (F := Ideal) (m ((c.tc : Thread nD τ).loc main_arg1)) := by
  rw [U5_of m c main_v30 (by decide), U4_of m c main_v30 (by decide), U3_of m c main_v30 (by decide), U2_of m c main_v30 (by decide)]; exact edge_v30 m c
theorem U8_v1 : U8 m c main_v1 = Cert.ReferenceIdeal.Read.val_main_v1 (F := Ideal) (m ((c.tc : Thread nD τ).loc main_arg1)) := by
  rw [U8_of m c main_v1 (by decide), U7_of m c main_v1 (by decide), U6_of m c main_v1 (by decide), U5_of m c main_v1 (by decide), U4_of m c main_v1 (by decide), U3_of m c main_v1 (by decide), U2_of m c main_v1 (by decide)]; exact edge_v1 m c
theorem U8_v3 : U8 m c main_v3 = Cert.ReferenceIdeal.Read.val_main_v3 (F := Ideal) (m ((c.tc : Thread nD τ).loc main_arg1)) := by
  rw [U8_of m c main_v3 (by decide), U7_of m c main_v3 (by decide), U6_of m c main_v3 (by decide), U5_of m c main_v3 (by decide), U4_of m c main_v3 (by decide), U3_of m c main_v3 (by decide), U2_of m c main_v3 (by decide)]; exact edge_v3 m c
theorem U8_v30 : U8 m c main_v30 = Cert.ReferenceIdeal.Read.val_main_v30 (F := Ideal) (m ((c.tc : Thread nD τ).loc main_arg1)) := by
  rw [U8_of m c main_v30 (by decide), U7_of m c main_v30 (by decide), U6_of m c main_v30 (by decide), U5_of m c main_v30 (by decide), U4_of m c main_v30 (by decide), U3_of m c main_v30 (by decide), U2_of m c main_v30 (by decide)]; exact edge_v30 m c
theorem U11_v1 : U11 m c main_v1 = Cert.ReferenceIdeal.Read.val_main_v1 (F := Ideal) (m ((c.tc : Thread nD τ).loc main_arg1)) := by
  rw [U11_of m c main_v1 (by decide), U10_of m c main_v1 (by decide), U9_of m c main_v1 (by decide), U8_of m c main_v1 (by decide), U7_of m c main_v1 (by decide), U6_of m c main_v1 (by decide), U5_of m c main_v1 (by decide), U4_of m c main_v1 (by decide), U3_of m c main_v1 (by decide), U2_of m c main_v1 (by decide)]; exact edge_v1 m c
theorem U11_v3 : U11 m c main_v3 = Cert.ReferenceIdeal.Read.val_main_v3 (F := Ideal) (m ((c.tc : Thread nD τ).loc main_arg1)) := by
  rw [U11_of m c main_v3 (by decide), U10_of m c main_v3 (by decide), U9_of m c main_v3 (by decide), U8_of m c main_v3 (by decide), U7_of m c main_v3 (by decide), U6_of m c main_v3 (by decide), U5_of m c main_v3 (by decide), U4_of m c main_v3 (by decide), U3_of m c main_v3 (by decide), U2_of m c main_v3 (by decide)]; exact edge_v3 m c
theorem U11_v30 : U11 m c main_v30 = Cert.ReferenceIdeal.Read.val_main_v30 (F := Ideal) (m ((c.tc : Thread nD τ).loc main_arg1)) := by
  rw [U11_of m c main_v30 (by decide), U10_of m c main_v30 (by decide), U9_of m c main_v30 (by decide), U8_of m c main_v30 (by decide), U7_of m c main_v30 (by decide), U6_of m c main_v30 (by decide), U5_of m c main_v30 (by decide), U4_of m c main_v30 (by decide), U3_of m c main_v30 (by decide), U2_of m c main_v30 (by decide)]; exact edge_v30 m c
theorem U14_v1 : U14 m c main_v1 = Cert.ReferenceIdeal.Read.val_main_v1 (F := Ideal) (m ((c.tc : Thread nD τ).loc main_arg1)) := by
  rw [U14_of m c main_v1 (by decide), U13_of m c main_v1 (by decide), U12_of m c main_v1 (by decide), U11_of m c main_v1 (by decide), U10_of m c main_v1 (by decide), U9_of m c main_v1 (by decide), U8_of m c main_v1 (by decide), U7_of m c main_v1 (by decide), U6_of m c main_v1 (by decide), U5_of m c main_v1 (by decide), U4_of m c main_v1 (by decide), U3_of m c main_v1 (by decide), U2_of m c main_v1 (by decide)]; exact edge_v1 m c
theorem U14_v3 : U14 m c main_v3 = Cert.ReferenceIdeal.Read.val_main_v3 (F := Ideal) (m ((c.tc : Thread nD τ).loc main_arg1)) := by
  rw [U14_of m c main_v3 (by decide), U13_of m c main_v3 (by decide), U12_of m c main_v3 (by decide), U11_of m c main_v3 (by decide), U10_of m c main_v3 (by decide), U9_of m c main_v3 (by decide), U8_of m c main_v3 (by decide), U7_of m c main_v3 (by decide), U6_of m c main_v3 (by decide), U5_of m c main_v3 (by decide), U4_of m c main_v3 (by decide), U3_of m c main_v3 (by decide), U2_of m c main_v3 (by decide)]; exact edge_v3 m c
theorem U14_v30 : U14 m c main_v30 = Cert.ReferenceIdeal.Read.val_main_v30 (F := Ideal) (m ((c.tc : Thread nD τ).loc main_arg1)) := by
  rw [U14_of m c main_v30 (by decide), U13_of m c main_v30 (by decide), U12_of m c main_v30 (by decide), U11_of m c main_v30 (by decide), U10_of m c main_v30 (by decide), U9_of m c main_v30 (by decide), U8_of m c main_v30 (by decide), U7_of m c main_v30 (by decide), U6_of m c main_v30 (by decide), U5_of m c main_v30 (by decide), U4_of m c main_v30 (by decide), U3_of m c main_v30 (by decide), U2_of m c main_v30 (by decide)]; exact edge_v30 m c

/-! ## Layer by layer -/

theorem O2_eq : O2 m c = Cert.ReferenceIdeal.Read.val_main_v33 (F := Ideal) (m ((c.tc : Thread nD τ).loc main_arg0)) (m ((c.tc : Thread nD τ).loc main_arg2)) := by
  unfold O2
  rw [arrAt_mm0 (fun c b => U1 m c b) c]
  show Host.dotGeneral (F := Ideal) (φ₁ := .f32) (φ₂ := .f32) _ none (U1 m c main_arg0) (U1 m c main_arg2) = _
  rw [U1_arg0 m c, U1_arg2 m c]
  exact (Cert.ReferenceIdeal.Chain.h1_eq _ _).symm
/-- The host stretch before region 1 leaves the reference's neighbourhood sum. -/
theorem U3_agg : U3 m c main_v47 = Cert.ReferenceIdeal.Read.val_main_v46 (F := Ideal) (m ((c.tc : Thread nD τ).loc main_arg0)) (m ((c.tc : Thread nD τ).loc main_arg1)) (m ((c.tc : Thread nD τ).loc main_arg2)) := by
  show StableHlo.after hostOps1 (U2 m c) main_v47 = _
  rw [agg1_eq (U2 m c), U2_self m c, O2_eq m c, U2_v1 m c, U2_v3 m c, U2_v30 m c]
  exact (Cert.ReferenceIdeal.Chain.agg1_eq _ _ _).symm
/-- Region 1's result is the reference's combination. -/
theorem O4_eq : O4 m c = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) := by
  unfold O4
  rw [arrAt_cb1 (fun c b => U3 m c b) c]
  show Cert.ReferenceIdeal.Forms.cmb128 (F := Ideal) (U3 m c main_v47) (U3 m c main_v34) (U3 m c main_v33) (U3 m c main_arg3) = _
  rw [U3_agg m c, U3_of m c main_v34 (by decide), U2_self m c, O2_eq m c, U3_col m c, U3_arg3 m c]
  exact (Cert.ReferenceIdeal.Chain.z1_eq _ _ _ _).symm
/-- Region 2's result is the reference's dense transform. -/
theorem O5_eq : O5 m c = Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold O5
  rw [arrAt_mm2 (fun c b => U4 m c b) c]
  show Host.dotGeneral (F := Ideal) (φ₁ := .f32) (φ₂ := .f32) _ none (U4 m c main_v48) (U4 m c main_arg4) = _
  rw [U4_self m c, O4_eq m c, U4_arg4 m c]
  exact (Cert.ReferenceIdeal.Chain.h2_eq _ _ _ _ _).symm
/-- The host stretch before region 3 leaves the reference's neighbourhood sum. -/
theorem U6_agg : U6 m c main_v62 = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (U5 m c) main_v62 = _
  rw [agg3_eq (U5 m c), U5_self m c, O5_eq m c, U5_v1 m c, U5_v3 m c, U5_v30 m c]
  exact (Cert.ReferenceIdeal.Chain.agg2_eq _ _ _ _ _).symm
/-- Region 3's result is the reference's combination. -/
theorem O7_eq : O7 m c = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold O7
  rw [arrAt_cb3 (fun c b => U6 m c b) c]
  show Cert.ReferenceIdeal.Forms.cmb64 (F := Ideal) (U6 m c main_v62) (U6 m c main_v49) (U6 m c main_v33) (U6 m c main_arg5) = _
  rw [U6_agg m c, U6_of m c main_v49 (by decide), U5_self m c, O5_eq m c, U6_col m c, U6_arg5 m c]
  exact (Cert.ReferenceIdeal.Chain.z2_eq _ _ _ _ _ _).symm
/-- Region 4's result is the reference's dense transform. -/
theorem O8_eq : O8 m c = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold O8
  rw [arrAt_mm4 (fun c b => U7 m c b) c]
  show Host.dotGeneral (F := Ideal) (φ₁ := .f32) (φ₂ := .f32) _ none (U7 m c main_v63) (U7 m c main_arg6) = _
  rw [U7_self m c, O7_eq m c, U7_arg6 m c]
  exact (Cert.ReferenceIdeal.Chain.h3_eq _ _ _ _ _ _ _).symm
/-- The host stretch before region 5 leaves the reference's neighbourhood sum. -/
theorem U9_agg : U9 m c main_v77 = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps5 (U8 m c) main_v77 = _
  rw [agg5_eq (U8 m c), U8_self m c, O8_eq m c, U8_v1 m c, U8_v3 m c, U8_v30 m c]
  exact (Cert.ReferenceIdeal.Chain.agg3_eq _ _ _ _ _ _ _).symm
/-- Region 5's result is the reference's combination. -/
theorem O10_eq : O10 m c = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold O10
  rw [arrAt_cb5 (fun c b => U9 m c b) c]
  show Cert.ReferenceIdeal.Forms.cmb128 (F := Ideal) (U9 m c main_v77) (U9 m c main_v64) (U9 m c main_v33) (U9 m c main_arg7) = _
  rw [U9_agg m c, U9_of m c main_v64 (by decide), U8_self m c, O8_eq m c, U9_col m c, U9_arg7 m c]
  exact (Cert.ReferenceIdeal.Chain.z3_eq _ _ _ _ _ _ _ _).symm
/-- Region 6's result is the reference's dense transform. -/
theorem O11_eq : O11 m c = Cert.ReferenceIdeal.Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold O11
  rw [arrAt_mm6 (fun c b => U10 m c b) c]
  show Host.dotGeneral (F := Ideal) (φ₁ := .f32) (φ₂ := .f32) _ none (U10 m c main_v78) (U10 m c main_arg8) = _
  rw [U10_self m c, O10_eq m c, U10_arg8 m c]
  exact (Cert.ReferenceIdeal.Chain.h4_eq _ _ _ _ _ _ _ _ _).symm
/-- The host stretch before region 7 leaves the reference's neighbourhood sum. -/
theorem U12_agg : U12 m c main_v92 = Cert.ReferenceIdeal.Read.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps7 (U11 m c) main_v92 = _
  rw [agg7_eq (U11 m c), U11_self m c, O11_eq m c, U11_v1 m c, U11_v3 m c, U11_v30 m c]
  exact (Cert.ReferenceIdeal.Chain.agg4_eq _ _ _ _ _ _ _ _ _).symm
/-- Region 7's result is the reference's combination. -/
theorem O13_eq : O13 m c = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold O13
  rw [arrAt_cb7 (fun c b => U12 m c b) c]
  show Cert.ReferenceIdeal.Forms.lin256 (F := Ideal) (U12 m c main_v92) (U12 m c main_v79) (U12 m c main_v33) (U12 m c main_arg9) = _
  rw [U12_agg m c, U12_of m c main_v79 (by decide), U11_self m c, O11_eq m c, U12_col m c, U12_arg9 m c]
  exact (Cert.ReferenceIdeal.Chain.z4_eq _ _ _ _ _ _ _ _ _ _).symm
/-- Region 8's result is the reference's dense transform. -/
theorem O14_eq : O14 m c = Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) := by
  unfold O14
  rw [arrAt_mm8 (fun c b => U13 m c b) c]
  show Host.dotGeneral (F := Ideal) (φ₁ := .f32) (φ₂ := .f32) _ none (U13 m c main_v63) (U13 m c main_arg10) = _
  rw [U13_of m c main_v63 (by decide), U12_of m c main_v63 (by decide), U11_of m c main_v63 (by decide), U10_of m c main_v63 (by decide), U9_of m c main_v63 (by decide), U8_of m c main_v63 (by decide), U7_self m c, O7_eq m c, U13_arg10 m c]
  exact (Cert.ReferenceIdeal.Chain.h5_eq _ _ _ _ _ _ _).symm
/-- The host stretch before region 9 leaves the reference's neighbourhood sum. -/
theorem U15_agg : U15 m c main_v107 = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) := by
  show StableHlo.after hostOps9 (U14 m c) main_v107 = _
  rw [agg9_eq (U14 m c), U14_self m c, O14_eq m c, U14_v1 m c, U14_v3 m c, U14_v30 m c]
  exact (Cert.ReferenceIdeal.Chain.agg5_eq _ _ _ _ _ _ _).symm
/-- Region 9's result is the reference's combination. -/
theorem O16_eq : O16 m c = Cert.ReferenceIdeal.Read.val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  unfold O16
  rw [arrAt_cb9 (fun c b => U15 m c b) c]
  show Cert.ReferenceIdeal.Forms.cmb64 (F := Ideal) (U15 m c main_v107) (U15 m c main_v94) (U15 m c main_v33) (U15 m c main_arg11) = _
  rw [U15_agg m c, U15_of m c main_v94 (by decide), U14_self m c, O14_eq m c, U15_col m c, U15_arg11 m c]
  exact (Cert.ReferenceIdeal.Chain.z5_eq _ _ _ _ _ _ _ _).symm
/-- Region 10's result is the reference's Gram matrix. -/
theorem O17_eq : O17 m c = Cert.ReferenceIdeal.Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  unfold O17
  rw [arrAt_sst (fun c b => U16 m c b) c]
  show Cert.ReferenceIdeal.Forms.gram (F := Ideal) (U16 m c main_v108) = _
  rw [U16_self m c, O16_eq m c]
  exact (Cert.ReferenceIdeal.Chain.gram_eq _ _ _ _ _ _ _ _).symm

/-! ## The three results at the end -/

/-- The reconstructed attributes. -/
theorem res0_eq : U17 m c main_v93 = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [U17_of m c main_v93 (by decide), U16_of m c main_v93 (by decide), U15_of m c main_v93 (by decide), U14_of m c main_v93 (by decide), U13_self m c]; exact O13_eq m c
/-- The reconstructed structure. -/
theorem res1_eq : U17 m c main_v109 = Cert.ReferenceIdeal.Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  rw [U17_self m c]; exact O17_eq m c
/-- The embedding. -/
theorem res2_eq : U17 m c main_v63 = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [U17_of m c main_v63 (by decide), U16_of m c main_v63 (by decide), U15_of m c main_v63 (by decide), U14_of m c main_v63 (by decide), U13_of m c main_v63 (by decide), U12_of m c main_v63 (by decide), U11_of m c main_v63 (by decide), U10_of m c main_v63 (by decide), U9_of m c main_v63 (by decide), U8_of m c main_v63 (by decide), U7_self m c]; exact O7_eq m c

end Cert.KernelIdeal.Hand

end
-- ==== Proof.lean ====
/-
  The certificate of the graph autoencoder's kernel program against its reference: three frames, the (empty)
  idealization ledger, and the equality of the two idealized programs' results.

  The kernel program runs eleven kernel regions among stretches of host operations: five dense transforms h = x·W
  (a block of 2048 rows against the whole weight matrix per grid point), five combinations agg + h·(1/deg) + b (four
  of them rectified), and the Gram matrix s·sᵀ in blocks of 1024×1024; the neighbourhood sums between them (a gather
  of rows by source node, scaled by the edge normalisation, scatter-added by destination node) are host operations in
  both programs. At the ideal instance a change of float format is the identity, a matrix product into a zero
  accumulator is the plain sum over the contracted axis, and every block of a region's output is the corresponding
  block of one whole-array function of the region's inputs; so region by region the kernel program's arrays are the
  reference's stages, and the three results agree. No law used needs the inputs to be finite: both sides compute the
  same sums and products in the same arrangement, element by element.

  The frames: each region is an item of @main's run, entered with every unscoped buffer at the contents the items
  before it left and left with its output array at what the pipeline's write-backs make of it; the body of each
  kernel loads its input blocks, forms its one value and stores it over the whole output block. The reference has no
  kernel: its frame is its run with the results dropped.
-/
import proofs.«135987_j23871428231489_1_alg».proof.Defs
import proofs.«135987_j23871428231489_1_alg».proof.Proof.Gen.Kernel
import proofs.«135987_j23871428231489_1_alg».proof.Proof.Gen.KernelIdeal
import proofs.«135987_j23871428231489_1_alg».proof.Proof.Gen.ReferenceIdeal
import proofs.«135987_j23871428231489_1_alg».proof.Proof.Gen.Pre_finite_inputs
import proofs.«135987_j23871428231489_1_alg».proof.Proof.Bits.Frame
import proofs.«135987_j23871428231489_1_alg».proof.Proof.Frame
import proofs.«135987_j23871428231489_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference's frame: its run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

/-- Both idealized programs run, and from memories that agree on the arguments they end with the same three results:
    the kernel program's at the chain's last contents, which are the reference's stages of the same arguments. -/
theorem algebraic : @Cert.algebraic_KernelIdeal_ReferenceIdeal Cert.KernelIdeal.Gen.facts Cert.ReferenceIdeal.Gen.facts Cert.Pre_finite_inputs.Gen.facts := by
  intro m ρ m' ρ' _ hagree
  haveI : Cert.ReferenceIdeal.Facts := Cert.ReferenceIdeal.Gen.facts
  refine ⟨fun c => Cert.KernelIdeal.Hand.U17 m c Cert.KernelIdeal.main_v93, fun c => Cert.KernelIdeal.Hand.U17 m c Cert.KernelIdeal.main_v109,
    fun c => Cert.KernelIdeal.Hand.U17 m c Cert.KernelIdeal.main_v63, Cert.KernelIdeal.Hand.run_main m ρ, ?_⟩
  refine (θ_run Cert.ReferenceIdeal.defs _ _).mono (fun _ h c => ?_) (Cert.ReferenceIdeal.Value.run (F := Ideal) m' ρ')
  obtain ⟨h0, h1, h2, hargs⟩ := h c
  obtain ⟨g0, g1, g2, g3, g4, g5, g6, g7, g8, g9, g10, g11⟩ := hagree c
  refine ⟨h0.trans ?_, h1.trans ?_, h2.trans ?_, hargs⟩
  · rw [Cert.ReferenceIdeal.Read.val_main_v119_eq, g0, g1, g2, g3, g4, g5, g6, g7, g8, g9]
    exact (Cert.KernelIdeal.Hand.res0_eq m c).symm
  · rw [Cert.ReferenceIdeal.Read.val_main_v143_eq, g0, g1, g2, g3, g4, g5, g10, g11]
    exact (Cert.KernelIdeal.Hand.res1_eq m c).symm
  · rw [Cert.ReferenceIdeal.Read.val_main_v76_eq, g0, g1, g2, g3, g4, g5]
    exact (Cert.KernelIdeal.Hand.res2_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
